-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S16777216x1 : Shape := ⟨2, ![16777216, 1]⟩
abbrev S8 : Shape := ⟨1, ![8]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel
  bcast_S_S8 : S_.BroadcastsInDim S8 (![] : Fin 0 → Fin S8.rank)
  reducesTo_S8_S_d0 : S8.ReducesTo [0] S_

variable [Facts]

def fn_part1 {F : FTy → Type} [FloatOps F] (main_arg1 : FVec F S16777216x1 .f32) (main_arg2 : FVec F S16777216x1 .f32) (main_v13 : IVec S_ 1) (main_v15 : IVec S16777216x1 1) (main_cst_5 : FVec F S_ .f32) : IVec S_ 1 :=
  let main_v16 : FVec F S16777216x1 .f32 := broadcastInDim S16777216x1 ![] bcast_S_S16777216x1 main_cst_5
  let main_v17 : IVec S16777216x1 1 := cmpf .oeq main_arg1 main_v16
  let main_v18 : IVec S16777216x1 1 := ori main_v15 main_v17
  let main_c_6 : IVec S_ 1 := constantI S_ 1 1#1
  let main_v19 : IVec S_ 1 := (fun x v => Host.reduce IntOp.andi x v reducesTo_S16777216x1_S_d0_1 h_S_) main_v18 main_c_6
  let main_v20 : IVec S_ 1 := andi main_v13 main_v19
  let main_cst_7 : FVec F S_ .f32 := constant S_ .f32 0x00000000#32
  let main_v21 : FVec F S16777216x1 .f32 := broadcastInDim S16777216x1 ![] bcast_S_S16777216x1 main_cst_7
  let main_v22 : IVec S16777216x1 1 := cmpf .oeq main_arg2 main_v21
  let main_cst_8 : FVec F S_ .f32 := constant S_ .f32 0x3F800000#32
  let main_v23 : FVec F S16777216x1 .f32 := broadcastInDim S16777216x1 ![] bcast_S_S16777216x1 main_cst_8
  let main_v24 : IVec S16777216x1 1 := cmpf .oeq main_arg2 main_v23
  let main_v25 : IVec S16777216x1 1 := ori main_v22 main_v24
  let main_c_9 : IVec S_ 1 := constantI S_ 1 1#1
  let main_v26 : IVec S_ 1 := (fun x v => Host.reduce IntOp.andi x v reducesTo_S16777216x1_S_d0_1 h_S_) main_v25 main_c_9
  let main_v27 : IVec S_ 1 := andi main_v20 main_v26
  main_v27

def fn {F : FTy → Type} [FloatOps F] (main_arg0 : IVec S16777216 32) (main_arg1 : FVec F S16777216x1 .f32) (main_arg2 : FVec F S16777216x1 .f32) (main_arg3 : FVec F S8 .f32) : IVec S_ 1 :=
  let main_v0 : FVec F S16777216x1 .f32 := Host.absf main_arg1
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg2
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_cst_4 : FVec F S_ .f32 := constant S_ .f32 0x00000000#32
  let main_v14 : FVec F S16777216x1 .f32 := broadcastInDim S16777216x1 ![] bcast_S_S16777216x1 main_cst_4
  let main_v15 : IVec S16777216x1 1 := cmpf .oeq main_arg1 main_v14
  let main_cst_5 : FVec F S_ .f32 := constant S_ .f32 0x3F800000#32
  fn_part1 (F := F) main_arg1 main_arg2 main_v13 main_v15 main_cst_5
-- ==== Kernel.lean ====
abbrev S16777216 : Shape := ⟨1, ![16777216]⟩
abbrev S16777216x1 : Shape := ⟨2, ![16777216, 1]⟩
abbrev S8 : Shape := ⟨1, ![8]⟩
abbrev S131072x128 : Shape := ⟨2, ![131072, 128]⟩
abbrev S2x1x8 : Shape := ⟨3, ![2, 1, 8]⟩
abbrev S2x1x1 : Shape := ⟨3, ![2, 1, 1]⟩
abbrev S8192x128 : Shape := ⟨2, ![8192, 128]⟩
abbrev S1x1x8 : Shape := ⟨3, ![1, 1, 8]⟩
abbrev S1x1x1 : Shape := ⟨3, ![1, 1, 1]⟩
abbrev S1x8 : Shape := ⟨2, ![1, 8]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S2x8 : Shape := ⟨2, ![2, 8]⟩
abbrev S_ : Shape := ⟨0, ![]⟩
abbrev S2 : Shape := ⟨1, ![2]⟩

abbrev nBuf : Space → Nat
  | .hbm => 33
  | .vmem => 12
  | .smem => 0
  | _ => 0

abbrev bufTy : (tb : Table) → Fin (tcTables nBuf tb) → BufTy
  | .hbm, ⟨0, _⟩ => ⟨S16777216, .i32⟩
  | .hbm, ⟨1, _⟩ => ⟨S16777216x1, .f32⟩
  | .hbm, ⟨2, _⟩ => ⟨S16777216x1, .f32⟩
  | .hbm, ⟨3, _⟩ => ⟨S8, .f32⟩
  | .hbm, ⟨4, _⟩ => ⟨S131072x128, .i32⟩
  | .hbm, ⟨5, _⟩ => ⟨S16777216, .f32⟩
  | .hbm, ⟨6, _⟩ => ⟨S131072x128, .f32⟩
  | .hbm, ⟨7, _⟩ => ⟨S16777216, .f32⟩
  | .hbm, ⟨8, _⟩ => ⟨S131072x128, .f32⟩
  | .hbm, ⟨9, _⟩ => ⟨S2x1x8, .f32⟩
  | .hbm, ⟨10, _⟩ => ⟨S2x1x8, .f32⟩
  | .hbm, ⟨11, _⟩ => ⟨S2x1x1, .f32⟩
  | .hbm, ⟨12, _⟩ => ⟨S2x8, .f32⟩
  | .hbm, ⟨13, _⟩ => ⟨S_, .f32⟩
  | .hbm, ⟨14, _⟩ => ⟨S8, .f32⟩
  | .hbm, ⟨15, _⟩ => ⟨S2x8, .f32⟩
  | .hbm, ⟨16, _⟩ => ⟨S_, .f32⟩
  | .hbm, ⟨17, _⟩ => ⟨S8, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S8192x128, .i32⟩
  | .local _ .vmem, ⟨1, _⟩ => ⟨S8192x128, .i32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x1x8, .f32⟩
  | .local _ .vmem, ⟨7, _⟩ => ⟨S1x1x8, .f32⟩
  | .local _ .vmem, ⟨8, _⟩ => ⟨S1x1x8, .f32⟩
  | .local _ .vmem, ⟨9, _⟩ => ⟨S1x1x8, .f32⟩
  | .local _ .vmem, ⟨10, _⟩ => ⟨S1x1x1, .f32⟩
  | .local _ .vmem, ⟨11, _⟩ => ⟨S1x1x1, .f32⟩
  | _, _ => ⟨S16777216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16777216_S131072x128 : S16777216.ShapeCasts S131072x128
  shapeCasts_S16777216x1_S16777216 : S16777216x1.ShapeCasts S16777216
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  iota_S1x8_d1_w32 : S1x8.Iotas .tc 32 [1]
  natLt_1_32 : 1 < 32
  broadcasts_S1x1_S1x8 : S1x1.Broadcasts S1x8
  shapeCasts_S2x1x8_S2x8 : S2x1x8.ShapeCasts S2x8
  reducesTo_S2x8_S8_d0 : S2x8.ReducesTo [0] S8
  h_S_ : 0 < S_.numel
  shapeCasts_S2x1x1_S2 : S2x1x1.ShapeCasts S2
  reducesTo_S2_S_d0 : S2.ReducesTo [0] S_
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .i32 = 32 ∨ (Rect.block (s := S131072x128) S8192x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8.size a ≤ S2x1x8.size a
  hwx0_3 : ∀ i : grid0.Coords, EltTy.bits .f32 = 32 ∨ (Rect.block (s := S2x1x8) S1x1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8.size a ≤ S2x1x8.size a
  hwx0_4 : ∀ i : grid0.Coords, EltTy.bits .f32 = 32 ∨ (Rect.block (s := S2x1x8) S1x1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16777216 : Shape := ⟨1, ![16777216]⟩
abbrev S16777216x1 : Shape := ⟨2, ![16777216, 1]⟩
abbrev S8 : Shape := ⟨1, ![8]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16777216, .i32⟩
  | .hbm, ⟨1, _⟩ => ⟨S16777216x1, .f32⟩
  | .hbm, ⟨2, _⟩ => ⟨S16777216x1, .f32⟩
  | .hbm, ⟨3, _⟩ => ⟨S8, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .i1⟩
  | .hbm, ⟨9, _⟩ => ⟨S_, .f32⟩
  | .hbm, ⟨10, _⟩ => ⟨S16777216, .f32⟩
  | .hbm, ⟨11, _⟩ => ⟨S16777216, .i1⟩
  | .hbm, ⟨12, _⟩ => ⟨S16777216, .i1⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .i1⟩
  | .hbm, ⟨17, _⟩ => ⟨S_, .f32⟩
  | .hbm, ⟨18, _⟩ => ⟨S16777216, .f32⟩
  | .hbm, ⟨19, _⟩ => ⟨S16777216, .i1⟩
  | .hbm, ⟨20, _⟩ => ⟨S16777216, .i1⟩
  | .hbm, ⟨21, _⟩ => ⟨S16777216, .f32⟩
  | .hbm, ⟨22, _⟩ => ⟨S_, .f32⟩
  | .hbm, ⟨23, _⟩ => ⟨S8, .f32⟩
  | .hbm, ⟨24, _⟩ => ⟨S16777216x1, .i32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S16777216x1, .i32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S16777216x1, .f32⟩
  | .hbm, ⟨33, _⟩ => ⟨S16777216x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S16777216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  shapeCasts_S16777216x1_S16777216 : S16777216x1.ShapeCasts S16777216
  bcast_S_S16777216 : S_.BroadcastsInDim S16777216 (![] : Fin 0 → Fin S16777216.rank)
  bcast_S_S8 : S_.BroadcastsInDim S8 (![] : Fin 0 → Fin S8.rank)
  bcast_S16777216_S16777216x1_0 : S16777216.BroadcastsInDim S16777216x1 (![0] : Fin 1 → Fin S16777216x1.rank)
  reducesTo_S16777216x1_S_d0_1 : S16777216x1.ReducesTo [0, 1] S_
  h_S_ : 0 < S_.numel
  reducesTo_S8_S_d0 : S8.ReducesTo [0] S_
  scatter_S8_S16777216x1_S16777216_n_0_0_1_wf : ScatterDims.WF S8 S16777216x1 S16777216 [] [0] [0] 1

variable [Facts₀]

def scatter_S8_S16777216x1_S16777216_n_0_0_1 : ScatterDims S8 S16777216x1 S16777216 where
  updateWindowDims := []
  insertedWindowDims := [0]
  scatterDimsToOperandDims := [0]
  indexVectorDim := 1
  wf := scatter_S8_S16777216x1_S16777216_n_0_0_1_wf

class Facts : Prop extends Facts₀ where

variable [Facts]
-- ==== Proof.Spec.lean ====
/-
  The specification both programs meet, stated once over the argument arrays at the ideal instance.

  For sample i of N = 2^24 with group word seg i, prediction p i and label t i (the columns of the two
  [N,1] arrays), a sample counts as a TRUE POSITIVE when p i = 1 and t i = 1 and as a FALSE NEGATIVE when
  p i = 0 and t i = 1. For each of the 8 groups k the counts are
      TP k = sum over i with seg i = k of [p i = 1 and t i = 1],   FN k likewise,
  the squared error is SQ = sum over i of (p i - t i)^2, and the result is
      SQ / 2^24 + (sum_k s_k) / (min_k s_k + eps),   s_k = TP k / (TP k + FN k),
  the last line being the same host operations in both programs ("tailF": it is never opened).
-/
import Idealize.ShloMosaic.PureOps.Ideal
import Idealize.ShloMosaic.Lib.ValueIdx

noncomputable section

open scoped BigOperators

namespace Cert.FairSpec

open Idealize.ShloMosaic Idealize.ShloMosaic.ValueIdx

abbrev SN : Shape := ⟨1, ![16777216]⟩
abbrev SNx1 : Shape := ⟨2, ![16777216, 1]⟩
abbrev SK : Shape := ⟨1, ![8]⟩
abbrev S0 : Shape := ⟨0, ![]⟩

theorem hR : SK.ReducesTo [0] S0 := by decide
theorem h0 : 0 < S0.numel := by decide

/-- The 32-bit word of group k. -/
abbrev gw (k : Fin 8) : BitVec 32 := BitVec.ofNat 32 k.val

/-- True-positive indicator of one sample (prediction p, label t). -/
def tpm (p t : EReal) : EReal := if p = 1 ∧ t = 1 then 1 else 0
/-- False-negative indicator of one sample. -/
def fnm (p t : EReal) : EReal := if p = 0 ∧ t = 1 then 1 else 0
/-- Squared error of one sample. -/
def sqm (p t : EReal) : EReal := (p - t) * (p - t)

/-- An array of predictions or labels is binary: every entry is 0 or 1. -/
def Binary (x : FVec Ideal SNx1 .f32) : Prop := ∀ i : Fin 16777216, x (ix2 i 0) = 0 ∨ x (ix2 i 0) = 1

section
variable (seg : IVec SN 32) (inp tgt : FVec Ideal SNx1 .f32)

/-- True positives of group k. -/
def TP (k : Fin 8) : EReal :=
  ∑ i : Fin 16777216, if seg (ix1 i) = gw k then tpm (inp (ix2 i 0)) (tgt (ix2 i 0)) else 0
/-- False negatives of group k. -/
def FN (k : Fin 8) : EReal :=
  ∑ i : Fin 16777216, if seg (ix1 i) = gw k then fnm (inp (ix2 i 0)) (tgt (ix2 i 0)) else 0
/-- The summed squared error. -/
def SQ : EReal := ∑ i : Fin 16777216, sqm (inp (ix2 i 0)) (tgt (ix2 i 0))

def tpv : FVec Ideal SK .f32 := fun j => TP seg inp tgt (j 0)
def fnv : FVec Ideal SK .f32 := fun j => FN seg inp tgt (j 0)
def sqv : FVec Ideal S0 .f32 := fun _ => SQ inp tgt
end

/-- The closing host operations, the same in both programs: the per-group rates, their sum over their
    minimum plus eps, added to the mean squared error. -/
def tailF (tp fn : FVec Ideal SK .f32) (sq : FVec Ideal S0 .f32) : FVec Ideal S0 .f32 :=
  addf (Host.divf sq (constant (F := Ideal) S0 .f32 0x4B800000#32))
    (Host.divf
      (Host.reduceAdd (Host.divf tp (addf tp fn)) (constant (F := Ideal) S0 .f32 0x00000000#32) hR h0)
      (addf (Host.reduce FloatOps.minimumf (Host.divf tp (addf tp fn)) (constant (F := Ideal) S0 .f32 0x7F800000#32) hR h0)
        (constant (F := Ideal) S0 .f32 0x33D6BF95#32)))

/-- The result of both programs as a function of the three argument arrays. -/
def result (seg : IVec SN 32) (inp tgt : FVec Ideal SNx1 .f32) : FVec Ideal S0 .f32 :=
  tailF (tpv seg inp tgt) (fnv seg inp tgt) (sqv inp tgt)

end Cert.FairSpec

end
-- ==== Proof.RefValue.lean ====
/-
  The reference's side: the composed term its run ends with is the specification's result of the argument
  arrays. Its two segment sums are scatter-adds of the true-positive and false-negative masks at the group
  words: an update lands on group k exactly when the sample's word, read signed, is k, and is dropped otherwise;
  its squared error is the host sum over all samples. The closing operations are the specification's own.
-/
import proofs.«406738_j86990267613933_3_alg».proof.Proof.Gen.ReferenceIdeal.Run
import proofs.«406738_j86990267613933_3_alg».proof.Proof.Gen.ReferenceIdeal.Read
import proofs.«406738_j86990267613933_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.FairRef

open Idealize.ShloMosaic Idealize.ShloMosaic.TcCoe Idealize.SL.Sem Idealize.ShloMosaic.ValueIdx
open Cert.ReferenceIdeal Cert.ReferenceIdeal.Gen

/-- The scatter's dimension numbers. -/
private abbrev D : ScatterDims S8 S16777216x1 S16777216 := scatter_S8_S16777216x1_S16777216_n_0_0_1

/-- Update i reads its one scatter index at row i of the index column. -/
private theorem siIdx_eq (j : S16777216.Idx) (c : Fin D.scatterDimsToOperandDims.length) :
    D.siIdx j c = ix2 (j 0) 0 := by
  funext b
  refine Fin.ext ?_
  match b with
  | ⟨0, _⟩ => rfl
  | ⟨1, _⟩ =>
    have := c.isLt
    show c.val = 0
    have h : D.scatterDimsToOperandDims.length = 1 := rfl
    omega

/-- The window of update i starts, on the one operand axis, at the sample's word read signed. -/
private theorem start_eq {w : Nat} (j : S16777216.Idx) (idx : IVec S16777216x1 w) (a : Fin S8.rank) :
    D.start j idx a = (idx (ix2 (j 0) 0)).toInt := by
  unfold ScatterDims.start
  have ha : a ∈ D.scatterDimsToOperandDims := by
    show a ∈ [(0 : Fin 1)]
    obtain rfl : a = 0 := Subsingleton.elim _ _
    exact List.mem_singleton.mpr rfl
  rw [dif_pos ha, siIdx_eq]
  rfl

/-- The operand's one axis is an inserted one: the window coordinate is 0. -/
private theorem window_eq (j : S16777216.Idx) (a : Fin S8.rank) : D.window j a = 0 := by
  unfold ScatterDims.window
  have ha : a ∉ D.sKept := by
    show a ∉ ([] : List (Fin 1))
    exact List.not_mem_nil
  rw [dif_neg ha]

/-- Update i lands on group k exactly when the sample's word, read signed, is k; otherwise it lands elsewhere
    or is dropped. -/
private theorem resultIdx?_iff {w : Nat} (j : S16777216.Idx) (idx : IVec S16777216x1 w) (k : Fin 8) :
    D.resultIdx? j idx = some (ix1 k) ↔ (idx (ix2 (j 0) 0)).toInt = (k.val : Int) := by
  have hk := k.isLt
  unfold ScatterDims.resultIdx?
  constructor
  · intro h
    split at h
    · rename_i H
      have h1 := Option.some.inj h
      have h2 : (D.start j idx 0 + (D.window j 0 : Int)).toNat = k.val := congrArg (fun f => (f 0).val) h1
      have h3 := (H 0).1
      rw [start_eq, window_eq] at h2 h3
      omega
    · exact absurd h (by simp)
  · intro h
    have H : ∀ a, 0 ≤ D.start j idx a + (D.window j a : Int) ∧ D.start j idx a + (D.window j a : Int) < S8.size a := by
      intro a
      rw [start_eq, window_eq, h]
      obtain rfl : a = 0 := Subsingleton.elim _ _
      show _ ∧ _ < ((8 : Nat) : Int)
      omega
    rw [dif_pos H]
    congr 1
    funext a
    obtain rfl : a = 0 := Subsingleton.elim _ _
    refine Fin.ext ?_
    show (D.start j idx 0 + (D.window j 0 : Int)).toNat = k.val
    rw [start_eq, window_eq, h]
    omega

/-- The word of group k, read signed, is k. -/
private theorem toInt_gw (k : Fin 8) : (BitVec.ofNat 32 k.val).toInt = (k.val : Int) := by
  have hk := k.isLt
  have hn : (BitVec.ofNat 32 k.val).toNat = k.val := by
    rw [BitVec.toNat_ofNat]; exact Nat.mod_eq_of_lt (by omega)
  rw [BitVec.toInt_eq_toNat_of_lt (by rw [hn]; omega), hn]

/-- A word reads signed as k exactly when it is group k's word. -/
private theorem word_iff (x : BitVec 32) (k : Fin 8) : x.toInt = (k.val : Int) ↔ x = BitVec.ofNat 32 k.val := by
  rw [← toInt_gw k]
  exact BitVec.toInt_inj

/-- Rank-1 indices of extent n are their one coordinate. -/
private def idxEquiv1 {n : Nat} : (⟨1, ![n]⟩ : Shape).Idx ≃ Fin n where
  toFun j := j 0
  invFun i := ix1 i
  left_inv j := (eq_ix1 j).symm
  right_inv _ := rfl

/-- So a sum over them is the sum over the coordinate. -/
private theorem sum_idx1 {M : Type*} [AddCommMonoid M] {n : Nat} (f : (⟨1, ![n]⟩ : Shape).Idx → M) :
    ∑ j, f j = ∑ i : Fin n, f (ix1 i) := by
  rw [← Equiv.sum_comp (idxEquiv1 (n := n)).symm f]
  rfl

/-- The scatter-add read at group k: the operand there plus the updates of the samples whose word is k's. -/
private theorem scatterAdd_apply (x : FVec Ideal S8 .f32) (idx : IVec S16777216x1 32) (upd : FVec Ideal S16777216 .f32) (k : Fin 8) :
    Host.scatterAdd D x idx upd (ix1 k)
      = x (ix1 k) + ∑ i : Fin 16777216, if idx (ix2 i 0) = Cert.FairSpec.gw k then upd (ix1 i) else 0 := by
  show Ideal.hostScatterAdd D x idx upd (ix1 k) = _
  unfold Ideal.hostScatterAdd
  rw [Finset.sum_filter, sum_idx1]
  refine congrArg (x (ix1 k) + ·) (Finset.sum_congr rfl fun i _ => ?_)
  have h := (resultIdx?_iff (ix1 i) idx k).trans (word_iff (idx (ix2 i 0)) k)
  by_cases hc : idx (ix2 i 0) = Cert.FairSpec.gw k
  · rw [if_pos hc, if_pos (h.mpr hc)]
  · rw [if_neg hc, if_neg (fun h' => hc (h.mp h'))]

/-- The word 0x3F800000 denotes 1. -/
private theorem ofBits_one_f32 : Ideal.ofBits .f32 0x3F800000#32 = 1 := by
  simp [Ideal.ofBits, Ideal.ieee, -EReal.coe_mul]; norm_num

/-- The conjunction of two one-bit truth values, read unsigned as an extended real, is the indicator of both. -/
private theorem bit_and (P Q : Prop) [Decidable P] [Decidable Q] :
    (FloatOps.uitofp (F := Ideal) .f32 (IntOp.andi (BitVec.ofBool (decide P)) (BitVec.ofBool (decide Q))) : EReal)
      = if P ∧ Q then 1 else 0 := by
  show (((IntOp.andi (BitVec.ofBool (decide P)) (BitVec.ofBool (decide Q))).toNat : ℝ) : EReal) = _
  by_cases hP : P <;> by_cases hQ : Q <;> simp [IntOp.andi, hP, hQ]

/-- A mask of the reference at sample i: both columns compared with a constant word each, the two bits
    conjoined and converted: the indicator that both equalities hold. -/
private theorem mask_apply (inp tgt : FVec Ideal S16777216x1 .f32) (b1 b2 : BitVec 32) (i : Fin 16777216) :
    (uitofp .f32 (andi
        (cmpf .oeq (shapeCast _ inp shapeCasts_S16777216x1_S16777216)
          (broadcastInDim S16777216 ![] bcast_S_S16777216 (constant S_ .f32 b1)))
        (cmpf .oeq (shapeCast _ tgt shapeCasts_S16777216x1_S16777216)
          (broadcastInDim S16777216 ![] bcast_S_S16777216 (constant S_ .f32 b2)))) : FVec Ideal S16777216 .f32) (ix1 i)
      = if inp (ix2 i 0) = Ideal.ofBits .f32 b1 ∧ tgt (ix2 i 0) = Ideal.ofBits .f32 b2 then 1 else 0 := by
  have hs : ∀ x : FVec Ideal S16777216x1 .f32,
      shapeCast S16777216 x shapeCasts_S16777216x1_S16777216 (ix1 i) = x (ix2 i 0) := fun x =>
    shapeCast_apply x shapeCasts_S16777216x1_S16777216 (ix1 i) (ix2 i 0)
      (by rw [Shape.rowMajor_val_two, Shape.rowMajor_val_one]; show i.val * 1 + 0 = i.val; omega)
  show FloatOps.uitofp .f32 (IntOp.andi
      (FloatOps.cmpf .oeq (shapeCast S16777216 inp shapeCasts_S16777216x1_S16777216 (ix1 i)) (Ideal.ofBits .f32 b1))
      (FloatOps.cmpf .oeq (shapeCast S16777216 tgt shapeCasts_S16777216x1_S16777216 (ix1 i)) (Ideal.ofBits .f32 b2))) = _
  rw [hs inp, hs tgt]
  exact bit_and _ _

/-- The group words broadcast to a column read the sample's word. -/
private theorem seg_apply (seg : IVec S16777216 32) (i : Fin 16777216) :
    broadcastInDim S16777216x1 ![0] bcast_S16777216_S16777216x1_0 seg (ix2 i 0) = seg (ix1 i) :=
  broadcastInDim_apply _ bcast_S16777216_S16777216x1_0 seg (ix2 i 0) (ix1 i) (fun a => by
    obtain rfl : a = 0 := Subsingleton.elim _ _
    show i.val = if (16777216 : Nat) = 1 then 0 else i.val
    rw [if_neg (by decide)])

/-- The zero vector of the groups. -/
private theorem zero_apply (j : S8.Idx) :
    (broadcastInDim S8 ![] bcast_S_S8 (constant (F := Ideal) S_ .f32 0x00000000#32) : FVec Ideal S8 .f32) j = 0 := by
  show Ideal.ofBits .f32 0x00000000#32 = 0
  exact Ideal.ofBits_zero_f32

/-- The scatter-add of a mask into the zero vector, at group k, sums the mask over the group's samples. -/
private theorem scatter_mask (seg : IVec S16777216 32) (inp tgt : FVec Ideal S16777216x1 .f32) (b1 b2 : BitVec 32) (k : Fin 8) :
    Host.scatterAdd D (broadcastInDim S8 ![] bcast_S_S8 (constant (F := Ideal) S_ .f32 0x00000000#32))
        (broadcastInDim S16777216x1 ![0] bcast_S16777216_S16777216x1_0 seg)
        (uitofp .f32 (andi
          (cmpf .oeq (shapeCast _ inp shapeCasts_S16777216x1_S16777216)
            (broadcastInDim S16777216 ![] bcast_S_S16777216 (constant S_ .f32 b1)))
          (cmpf .oeq (shapeCast _ tgt shapeCasts_S16777216x1_S16777216)
            (broadcastInDim S16777216 ![] bcast_S_S16777216 (constant S_ .f32 b2))))) (ix1 k)
      = ∑ i : Fin 16777216, if seg (ix1 i) = Cert.FairSpec.gw k then
          (if inp (ix2 i 0) = Ideal.ofBits .f32 b1 ∧ tgt (ix2 i 0) = Ideal.ofBits .f32 b2 then (1 : EReal) else 0) else 0 := by
  rw [scatterAdd_apply, zero_apply, zero_add]
  refine Finset.sum_congr rfl fun i _ => ?_
  rw [seg_apply, mask_apply]

/-- The first segment sum of the reference is the specification's vector of true positives. -/
private theorem scatter_tp (seg : IVec S16777216 32) (inp tgt : FVec Ideal S16777216x1 .f32) :
    Host.scatterAdd D (broadcastInDim S8 ![] bcast_S_S8 (constant (F := Ideal) S_ .f32 0x00000000#32))
        (broadcastInDim S16777216x1 ![0] bcast_S16777216_S16777216x1_0 seg)
        (uitofp .f32 (andi
          (cmpf .oeq (shapeCast _ inp shapeCasts_S16777216x1_S16777216)
            (broadcastInDim S16777216 ![] bcast_S_S16777216 (constant S_ .f32 0x3F800000#32)))
          (cmpf .oeq (shapeCast _ tgt shapeCasts_S16777216x1_S16777216)
            (broadcastInDim S16777216 ![] bcast_S_S16777216 (constant S_ .f32 0x3F800000#32)))))
      = Cert.FairSpec.tpv seg inp tgt := by
  funext j
  obtain ⟨k, rfl⟩ : ∃ k : Fin 8, j = ix1 k := ⟨j 0, eq_ix1 j⟩
  rw [scatter_mask, ofBits_one_f32]
  rfl

/-- The second is its vector of false negatives. -/
private theorem scatter_fn (seg : IVec S16777216 32) (inp tgt : FVec Ideal S16777216x1 .f32) :
    Host.scatterAdd D (broadcastInDim S8 ![] bcast_S_S8 (constant (F := Ideal) S_ .f32 0x00000000#32))
        (broadcastInDim S16777216x1 ![0] bcast_S16777216_S16777216x1_0 seg)
        (uitofp .f32 (andi
          (cmpf .oeq (shapeCast _ inp shapeCasts_S16777216x1_S16777216)
            (broadcastInDim S16777216 ![] bcast_S_S16777216 (constant S_ .f32 0x00000000#32)))
          (cmpf .oeq (shapeCast _ tgt shapeCasts_S16777216x1_S16777216)
            (broadcastInDim S16777216 ![] bcast_S_S16777216 (constant S_ .f32 0x3F800000#32)))))
      = Cert.FairSpec.fnv seg inp tgt := by
  funext j
  obtain ⟨k, rfl⟩ : ∃ k : Fin 8, j = ix1 k := ⟨j 0, eq_ix1 j⟩
  rw [scatter_mask, ofBits_one_f32, Ideal.ofBits_zero_f32]
  rfl

/-- The host sum of the squared differences over both axes is the specification's squared error. -/
private theorem reduce_sq (inp tgt : FVec Ideal S16777216x1 .f32) :
    Host.reduceAdd (mulf (subf inp tgt) (subf inp tgt)) (constant (F := Ideal) S_ .f32 0x00000000#32)
        reducesTo_S16777216x1_S_d0_1 h_S_
      = Cert.FairSpec.sqv inp tgt := by
  funext j
  show Ideal.hostReduceAdd reducesTo_S16777216x1_S_d0_1 (mulf (subf inp tgt) (subf inp tgt))
      (Ideal.ofBits .f32 0x00000000#32) j
    = ∑ i : Fin 16777216, Cert.FairSpec.sqm (inp (ix2 i 0)) (tgt (ix2 i 0))
  rw [Ideal.hostReduceAdd_total reducesTo_S16777216x1_S_d0_1 (fun b => b.elim0), Ideal.ofBits_zero_f32, zero_add,
    sum_idx2]
  refine Finset.sum_congr rfl fun i _ => ?_
  rw [Fin.sum_univ_one]
  rfl

/-- The reference run's result term, at the ideal instance, is the specification's result of the three arrays. -/
theorem ref_result (m : (ℓ : Loc nD τ sig) → Buf (Elt Ideal) ℓ) (c : Dev nD) :
    Cert.ReferenceIdeal.Value.res_main_v30 (F := Ideal) m c
      = Cert.FairSpec.result (m ((c.tc : Thread nD τ).loc main_arg0)) (m ((c.tc : Thread nD τ).loc main_arg1))
          (m ((c.tc : Thread nD τ).loc main_arg2)) := by
  have hSQ := reduce_sq (m ((c.tc : Thread nD τ).loc main_arg1)) (m ((c.tc : Thread nD τ).loc main_arg2))
  have hTP := scatter_tp (m ((c.tc : Thread nD τ).loc main_arg0)) (m ((c.tc : Thread nD τ).loc main_arg1))
    (m ((c.tc : Thread nD τ).loc main_arg2))
  have hFN := scatter_fn (m ((c.tc : Thread nD τ).loc main_arg0)) (m ((c.tc : Thread nD τ).loc main_arg1))
    (m ((c.tc : Thread nD τ).loc main_arg2))
  unfold Cert.FairSpec.result
  rw [← hSQ, ← hTP, ← hFN]
  unfold Cert.ReferenceIdeal.Value.res_main_v30 Cert.FairSpec.tailF
  rfl

end Cert.FairRef

end
-- ==== Proof.PreBinary.lean ====
/-
  The precondition, read: where the printed predicate is all ones, every prediction and every label is 0 or 1.
  The predicate is a conjunction of five "all" reductions; the last two say, entry by entry, that the entry
  equals 0 or equals 1, as float comparisons, which at the ideal instance are equations of extended reals.
-/
import proofs.«406738_j86990267613933_3_alg».proof.Pre_finite_inputs
import proofs.«406738_j86990267613933_3_alg».proof.Proof.Gen.Pre_finite_inputs
import proofs.«406738_j86990267613933_3_alg».proof.Proof.Spec
import Idealize.ShloMosaic.Lib.ReduceAll
import Idealize.ShloMosaic.Lib.StableHlo.Predicate
import Idealize.ShloMosaic.Lib.ValueIdx
import Idealize.ShloMosaic.Lib.IdealHost

noncomputable section

namespace Cert.FairPre

open Idealize.ShloMosaic Idealize.ShloMosaic.ValueIdx

/-- The rank-0 shape has one index. -/
private theorem subsingleton_idx0 : Subsingleton Cert.Pre_finite_inputs.S_.Idx := ⟨fun a b => funext fun d => d.elim0⟩

/-- At the ideal instance an ordered-equal comparison whose bit is set says its two extended reals are equal. -/
private theorem eq_of_cmpf_oeq {a b : Ideal .f32} (h : FloatOps.cmpf .oeq a b = 1#1) : a = b := by
  have h' : BitVec.ofBool (decide (a = b)) = 1#1 := h
  exact of_decide_eq_true ((StableHlo.Predicate.ofBool_eq_one_iff _).1 h')

/-- One entry of the mask "equals 0.0 or equals 1.0": where its bit is set, the entry is the extended real 0 or 1.
    The two comparands are the scalars 0.0 and 1.0 broadcast to the column's shape. -/
private theorem zero_or_one_of_mask
    (hb : Cert.Pre_finite_inputs.S_.BroadcastsInDim Cert.Pre_finite_inputs.S16777216x1 (![] : Fin 0 → Fin Cert.Pre_finite_inputs.S16777216x1.rank))
    (x : FVec Ideal Cert.Pre_finite_inputs.S16777216x1 .f32) (j : Cert.Pre_finite_inputs.S16777216x1.Idx)
    (h : ori (cmpf .oeq x (broadcastInDim Cert.Pre_finite_inputs.S16777216x1 ![] hb
                (constant (F := Ideal) Cert.Pre_finite_inputs.S_ .f32 0x00000000#32)))
             (cmpf .oeq x (broadcastInDim Cert.Pre_finite_inputs.S16777216x1 ![] hb
                (constant (F := Ideal) Cert.Pre_finite_inputs.S_ .f32 0x3F800000#32))) j = 1#1) :
    x j = 0 ∨ x j = 1 := by
  rcases IntOp.ori_eq_one.1 h with h0 | h1
  · left
    have e := eq_of_cmpf_oeq h0
    rw [broadcastInDim_scalar_apply, constant_apply, Ideal.ofBits_zero_f32] at e
    exact e
  · right
    have e := eq_of_cmpf_oeq h1
    rw [broadcastInDim_scalar_apply, constant_apply, Ideal.ofBits_one_f32] at e
    exact e

/-- Where the precondition holds (the predicate's one result bit is 1), predictions and labels are binary. -/
theorem binary_of_pre [Cert.Pre_finite_inputs.Facts] (seg : IVec Cert.Pre_finite_inputs.S16777216 32)
    (inp tgt : FVec Ideal Cert.Pre_finite_inputs.S16777216x1 .f32) (ua : FVec Ideal Cert.Pre_finite_inputs.S8 .f32)
    (h : Cert.Pre_finite_inputs.fn (F := Ideal) seg inp tgt ua = (fun _ => 1#1)) :
    Cert.FairSpec.Binary inp ∧ Cert.FairSpec.Binary tgt := by
  -- the predicate's one bit, as the nest (((a ∧ b) ∧ c) ∧ d) ∧ e of five "all" reductions
  have h0 := congrFun h ValueIdx.ix0
  dsimp only [Cert.Pre_finite_inputs.fn, Cert.Pre_finite_inputs.fn_part1] at h0
  obtain ⟨habcd, he⟩ := IntOp.andi_eq_one.1 h0
  obtain ⟨_, hd⟩ := IntOp.andi_eq_one.1 habcd
  haveI := subsingleton_idx0
  refine ⟨fun i => ?_, fun i => ?_⟩
  · exact zero_or_one_of_mask _ inp (ix2 i 0) (Host.reduce_andi_all _ _ _ _ ValueIdx.ix0 hd (ix2 i 0))
  · exact zero_or_one_of_mask _ tgt (ix2 i 0) (Host.reduce_andi_all _ _ _ _ ValueIdx.ix0 he (ix2 i 0))

end Cert.FairPre

end
-- ==== Proof.KStep.lean ====
/-
  The kernel body's three results as functions of its inputs: what the true-positive row, the false-negative
  row and the squared-error cell hold after one run of the body, given the three input blocks and what the
  output blocks held before. Each is the nest of the body's arithmetic as the generated skeleton names it.
-/
import proofs.«406738_j86990267613933_3_alg».proof.Proof.Gen.KernelIdeal.Skeleton

noncomputable section

namespace Cert.FairBody

open Idealize.ShloMosaic Idealize.SL.Sem
open Cert.KernelIdeal Cert.KernelIdeal.Gen

variable {F : FTy → Type} [FloatOps F]

/-- The zero row and the zero cell the first point of a core stores. -/
abbrev zero8 : Vec F S1x1x8 .f32 := k0_pay2
abbrev zero8' : Vec F S1x1x8 .f32 := k0_pay3
abbrev zero1 : Vec F S1x1x1 .f32 := k0_pay4

/-- The true-positive row after the body: the row before plus the eight per-group sums of the block. -/
def stepTP (x0 : Vec F S8192x128 .i32) (x1 x2 : Vec F S8192x128 .f32) (xo : Vec F S1x1x8 .f32) : Vec F S1x1x8 .f32 :=
  k0_pay49 (k0_pay9 x1 x2)
      (k0_pay43 (k0_pay5 x0) (k0_pay9 x1 x2)
        (k0_pay35 (k0_pay5 x0) (k0_pay9 x1 x2)
          (k0_pay25 (k0_pay5 x0) (k0_pay9 x1 x2) (k0_pay20 (k0_pay5 x0) (k0_pay9 x1 x2) k0_pay10 (k0_pay12 x0 x1 x2)))
          (k0_pay29 (k0_pay5 x0) (k0_pay9 x1 x2)))
        (k0_pay37 (k0_pay5 x0) (k0_pay9 x1 x2)) (k0_pay38 (k0_pay5 x0) (k0_pay9 x1 x2)))
      (k0_pay45 (k0_pay5 x0)) xo

/-- The false-negative row after the body. -/
def stepFN (x0 : Vec F S8192x128 .i32) (x1 x2 : Vec F S8192x128 .f32) (xo : Vec F S1x1x8 .f32) : Vec F S1x1x8 .f32 :=
  k0_pay1
      (k0_pay50 (k0_pay9 x1 x2)
        (k0_pay44 (k0_pay5 x0) (k0_pay9 x1 x2)
          (k0_pay36 (k0_pay5 x0) (k0_pay9 x1 x2)
            (k0_pay26 (k0_pay5 x0) (k0_pay9 x1 x2) (k0_pay16 k0_pay11 (k0_pay12 x0 x1 x2)) k0_pay19
              (k0_pay21 (k0_pay5 x0) (k0_pay9 x1 x2)))
            (k0_pay30 (k0_pay5 x0) (k0_pay9 x1 x2)))
          (k0_pay38 (k0_pay5 x0) (k0_pay9 x1 x2)))
        (k0_pay45 (k0_pay5 x0)) xo)

/-- The squared-error cell after the body. -/
def stepSQ (x1 x2 : Vec F S8192x128 .f32) (xo : Vec F S1x1x1 .f32) : Vec F S1x1x1 .f32 := k0_pay8 x1 x2 xo

end Cert.FairBody

end
-- ==== Proof.KBody.lean ====
/-
  What one run of the kernel body leaves in its three output blocks, as functions of the three input blocks and
  of what the output blocks held before: the true-positive row gains the block's eight per-group sums, the
  false-negative row likewise, the squared-error cell gains the block's sum. At a core's first grid point the
  body first stores zeros and reads them back, so the "before" contents are the zero block there.
-/
import proofs.«406738_j86990267613933_3_alg».proof.Proof.Gen.KernelIdeal.Frame
import proofs.«406738_j86990267613933_3_alg».proof.Proof.KStep
import Idealize.ShloMosaic.Lib.Pipeline.Value
import Idealize.ShloMosaic.Lib.Tactic

set_option maxRecDepth 16384

noncomputable section

namespace Cert.FairBody

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem outB3 (c : Dev nD) (i : grid0.Coords) (arg2 : Memref sig .tc .vmem S8192x128 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x1 .f32) (harg7 : arg7.IsWhole) (hc0 : ¬cond0_0 i)
    (x0 : Vec F S8192x128 .i32) (x1 : Vec F S8192x128 .f32) (x2 : Vec F S8192x128 .f32) (xo3 : Vec F S1x1x8 .f32) (xo4 : Vec F S1x1x8 .f32) (xo5 : Vec F S1x1x1 .f32) :
    out0_B_3 c i arg2 harg2 arg3 harg3 arg4 harg4 arg5 harg5 arg6 harg6 arg7 harg7 hc0 x0 x1 x2 xo3 xo4 xo5 = stepTP x0 x1 x2 xo3 := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S8192x128) hz2, View.ld_unit_zero (S := S1x1x8) hz3]
  try rfl

theorem outB4 (c : Dev nD) (i : grid0.Coords) (arg2 : Memref sig .tc .vmem S8192x128 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x1 .f32) (harg7 : arg7.IsWhole) (hc0 : ¬cond0_0 i)
    (x0 : Vec F S8192x128 .i32) (x1 : Vec F S8192x128 .f32) (x2 : Vec F S8192x128 .f32) (xo3 : Vec F S1x1x8 .f32) (xo4 : Vec F S1x1x8 .f32) (xo5 : Vec F S1x1x1 .f32) :
    out0_B_4 c i arg2 harg2 arg3 harg3 arg4 harg4 arg5 harg5 arg6 harg6 arg7 harg7 hc0 x0 x1 x2 xo3 xo4 xo5 = stepFN x0 x1 x2 xo4 := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S8192x128) hz2, View.ld_unit_zero (S := S1x1x8) hz3]
  try rfl

theorem outB5 (c : Dev nD) (i : grid0.Coords) (arg2 : Memref sig .tc .vmem S8192x128 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x1 .f32) (harg7 : arg7.IsWhole) (hc0 : ¬cond0_0 i)
    (x0 : Vec F S8192x128 .i32) (x1 : Vec F S8192x128 .f32) (x2 : Vec F S8192x128 .f32) (xo3 : Vec F S1x1x8 .f32) (xo4 : Vec F S1x1x8 .f32) (xo5 : Vec F S1x1x1 .f32) :
    out0_B_5 c i arg2 harg2 arg3 harg3 arg4 harg4 arg5 harg5 arg6 harg6 arg7 harg7 hc0 x0 x1 x2 xo3 xo4 xo5 = stepSQ x1 x2 xo5 := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S8192x128) hz2, View.ld_unit_zero (S := S1x1x1) hz3]
  try rfl

theorem outA3 (c : Dev nD) (i : grid0.Coords) (arg2 : Memref sig .tc .vmem S8192x128 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x1 .f32) (harg7 : arg7.IsWhole) (hc0 : cond0_0 i)
    (x0 : Vec F S8192x128 .i32) (x1 : Vec F S8192x128 .f32) (x2 : Vec F S8192x128 .f32) :
    out0_A_3 c i arg2 harg2 arg3 harg3 arg4 harg4 arg5 harg5 arg6 harg6 arg7 harg7 hc0 x0 x1 x2 = stepTP x0 x1 x2 zero8 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x1x8) hz3, View.readCov_unit_zero (S := S1x1x8) _ hz3]
  simp only [View.readAt_eq_ld, harg2.read_unread, harg3.read_unread, harg4.read_unread, harg5.read_unread, harg6.read_unread, harg7.read_unread, View.ld_unit_zero (S := S8192x128) hz2, View.ld_unit_zero (S := S1x1x8) hz3]
  try rfl

theorem outA4 (c : Dev nD) (i : grid0.Coords) (arg2 : Memref sig .tc .vmem S8192x128 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x1 .f32) (harg7 : arg7.IsWhole) (hc0 : cond0_0 i)
    (x0 : Vec F S8192x128 .i32) (x1 : Vec F S8192x128 .f32) (x2 : Vec F S8192x128 .f32) :
    out0_A_4 c i arg2 harg2 arg3 harg3 arg4 harg4 arg5 harg5 arg6 harg6 arg7 harg7 hc0 x0 x1 x2 = stepFN x0 x1 x2 zero8' := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x8) hz3, View.readCov_unit_zero (S := S1x1x8) _ hz3]
  simp only [View.readAt_eq_ld, harg2.read_unread, harg3.read_unread, harg4.read_unread, harg5.read_unread, harg6.read_unread, harg7.read_unread, View.ld_unit_zero (S := S8192x128) hz2, View.ld_unit_zero (S := S1x1x8) hz3]
  try rfl

theorem outA5 (c : Dev nD) (i : grid0.Coords) (arg2 : Memref sig .tc .vmem S8192x128 .i32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x1 .f32) (harg7 : arg7.IsWhole) (hc0 : cond0_0 i)
    (x0 : Vec F S8192x128 .i32) (x1 : Vec F S8192x128 .f32) (x2 : Vec F S8192x128 .f32) :
    out0_A_5 c i arg2 harg2 arg3 harg3 arg4 harg4 arg5 harg5 arg6 harg6 arg7 harg7 hc0 x0 x1 x2 = stepSQ x1 x2 zero1 := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, View.ld_unit_zero (S := S8192x128) hz2, View.ld_unit_zero (S := S1x1x1) hz3]
  try rfl

end Cert.FairBody

end
-- ==== Proof.KBlocks.lean ====
/-
  The kernel's three input windows read at an index. Each [2^24] (or [2^24,1]) argument is reshaped by the host
  to [131072,128] before the call; window w's block at grid point t is rows 8192 t … 8192 t + 8191 of that
  array, so entry (r, l) of the block is sample (8192 t + r) * 128 + l of the argument.
-/
import proofs.«406738_j86990267613933_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.FairBlocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The three input blocks at grid point t, named at their literal types. -/
abbrev segb (c : Dev nD) (t : Fin cfg0.N) : Vec F S8192x128 .i32 := iblk m c 0 t
abbrev inpb (c : Dev nD) (t : Fin cfg0.N) : Vec F S8192x128 .f32 := iblk m c 1 t
abbrev tgtb (c : Dev nD) (t : Fin cfg0.N) : Vec F S8192x128 .f32 := iblk m c 2 t

/-- The sample at row r, lane l of block b (16 blocks of 8192 rows of 128 lanes, row-major). -/
def flat (b : ℕ) (hb : b < 16) (r : Fin 8192) (l : Fin 128) : Fin 16777216 :=
  ⟨(b * 8192 + r.val) * 128 + l.val, by have := r.isLt; have := l.isLt; omega⟩

theorem pt_lt (t : Fin cfg0.N) : t.val < 16 := lt_of_lt_of_eq t.isLt N_0

/-! ## The arrays the windows stage, as terms of the arguments -/

/-- Window 0's array: the first argument, [2^24], reshaped to rows of 128. -/
theorem V_v0 (c : Dev nD) :
    (V m c main_v0 : S131072x128.Idx → BitVec 32)
      = shapeCast S131072x128 (m ((c.tc : Thread nD τ).loc main_arg0)) shapeCasts_S16777216_S131072x128 := by
  show StableHlo.after hostOps0 (fun b => m (c, b)) (Proc.devRef .tc main_v0) = _
  after_results
  rfl

/-- Window 1's array: the second argument, [2^24,1], flattened to [2^24] and then reshaped to rows of 128. -/
theorem V_v2 (c : Dev nD) :
    (V m c main_v2 : S131072x128.Idx → F .f32)
      = shapeCast S131072x128
          (shapeCast S16777216 (m ((c.tc : Thread nD τ).loc main_arg1)) shapeCasts_S16777216x1_S16777216)
          shapeCasts_S16777216_S131072x128 := by
  show StableHlo.after hostOps0 (fun b => m (c, b)) (Proc.devRef .tc main_v2) = _
  after_results
  rfl

/-- Window 2's array: the third argument, likewise. -/
theorem V_v4 (c : Dev nD) :
    (V m c main_v4 : S131072x128.Idx → F .f32)
      = shapeCast S131072x128
          (shapeCast S16777216 (m ((c.tc : Thread nD τ).loc main_arg2)) shapeCasts_S16777216x1_S16777216)
          shapeCasts_S16777216_S131072x128 := by
  show StableHlo.after hostOps0 (fun b => m (c, b)) (Proc.devRef .tc main_v4) = _
  after_results
  rfl

/-! ## The index maps over the grid

The grid is 2 × 8, row-major, so point t has coordinates (t / 8, t % 8) and each of the three maps sends it to
block row (t / 8) * 8 + t % 8 = t, block column 0. -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- A [n,1] array flattened to [n], read at i, is the array at (i, 0): the same row-major position i * 1 + 0. -/
theorem flatten_apply {α : Type} (x : S16777216x1.Idx → α) (i : Fin 16777216) :
    shapeCast S16777216 x shapeCasts_S16777216x1_S16777216 (ix1 i) = x (ix2 i (0 : Fin 1)) := by
  refine shapeCast_apply _ _ _ _ ?_
  rw [Shape.rowMajor_val_two, Shape.rowMajor_val_one]
  show i.val * 1 + 0 = i.val
  omega

/-! ## The blocks at an index

Entry (r, l) of block t sits at row t * 8192 + 1 * r, column 0 * 128 + 1 * l of the [131072,128] array, row-major
position (t * 8192 + r) * 128 + l, which is the position of sample `flat t r l` in the [2^24] array. -/

theorem segb_apply (c : Dev nD) (t : Fin cfg0.N) (r : Fin 8192) (l : Fin 128) :
    segb m c t (ix2 r l) = m ((c.tc : Thread nD τ).loc main_arg0) (ix1 (flat t.val (pt_lt t) r l)) := by
  show ((cfg0.win 0).blk t).view.read (Elt F) (V m c main_v0) (ix2 r l) = _
  rw [View.read_apply]
  show (V m c main_v0 : S131072x128.Idx → BitVec 32) _ = _
  rw [V_v0]
  refine shapeCast_apply _ _ _ _ ?_
  show (S16777216.rowMajor (ix1 (flat t.val (pt_lt t) r l))).val
    = (S131072x128.rowMajor (((cfg0.win 0).blk t).view.emb (ix2 r l))).val
  rw [Shape.rowMajor_val_one, Shape.rowMajor_val_two]
  show (t.val * 8192 + r.val) * 128 + l.val
    = (win0_0.index t 0 * 8192 + 1 * r.val) * 128 + (win0_0.index t 1 * 128 + 1 * l.val)
  rw [(idx0 t).1, (idx0 t).2]
  omega

theorem inpb_apply (c : Dev nD) (t : Fin cfg0.N) (r : Fin 8192) (l : Fin 128) :
    inpb m c t (ix2 r l) = m ((c.tc : Thread nD τ).loc main_arg1) (ix2 (flat t.val (pt_lt t) r l) (0 : Fin 1)) := by
  show ((cfg0.win 1).blk t).view.read (Elt F) (V m c main_v2) (ix2 r l) = _
  rw [View.read_apply]
  show (V m c main_v2 : S131072x128.Idx → F .f32) _ = _
  rw [V_v2]
  refine (shapeCast_apply _ _ _ (ix1 (flat t.val (pt_lt t) r l)) ?_).trans (flatten_apply _ _)
  show (S16777216.rowMajor (ix1 (flat t.val (pt_lt t) r l))).val
    = (S131072x128.rowMajor (((cfg0.win 1).blk t).view.emb (ix2 r l))).val
  rw [Shape.rowMajor_val_one, Shape.rowMajor_val_two]
  show (t.val * 8192 + r.val) * 128 + l.val
    = (win0_1.index t 0 * 8192 + 1 * r.val) * 128 + (win0_1.index t 1 * 128 + 1 * l.val)
  rw [(idx1 t).1, (idx1 t).2]
  omega

theorem tgtb_apply (c : Dev nD) (t : Fin cfg0.N) (r : Fin 8192) (l : Fin 128) :
    tgtb m c t (ix2 r l) = m ((c.tc : Thread nD τ).loc main_arg2) (ix2 (flat t.val (pt_lt t) r l) (0 : Fin 1)) := by
  show ((cfg0.win 2).blk t).view.read (Elt F) (V m c main_v4) (ix2 r l) = _
  rw [View.read_apply]
  show (V m c main_v4 : S131072x128.Idx → F .f32) _ = _
  rw [V_v4]
  refine (shapeCast_apply _ _ _ (ix1 (flat t.val (pt_lt t) r l)) ?_).trans (flatten_apply _ _)
  show (S16777216.rowMajor (ix1 (flat t.val (pt_lt t) r l))).val
    = (S131072x128.rowMajor (((cfg0.win 2).blk t).view.emb (ix2 r l))).val
  rw [Shape.rowMajor_val_one, Shape.rowMajor_val_two]
  show (t.val * 8192 + r.val) * 128 + l.val
    = (win0_2.index t 0 * 8192 + 1 * r.val) * 128 + (win0_2.index t 1 * 128 + 1 * l.val)
  rw [(idx2 t).1, (idx2 t).2]
  omega

end Cert.FairBlocks

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.BlockOps.lean ====
/-
  The kernel body's vector operations read at one index, at the ideal instance, over the block's literal
  shapes: a lane sum of an [8192,128] block laid out as a column, the sum of an [8192,1] column laid out as
  a [1,1] cell, a one-hot row of 8, a cell broadcast along a row of 8, the casts between [1,1,8] and [1,8] and
  between [1,1,1] and [1,1], and a select on a word comparison.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«406738_j86990267613933_3_alg».proof.Proof.LibColumn

noncomputable section

open scoped BigOperators

namespace Cert.FairOps

open Idealize.ShloMosaic Idealize.ShloMosaic.ValueIdx

abbrev SB : Shape := ⟨2, ![8192, 128]⟩
abbrev SR : Shape := ⟨1, ![8192]⟩
abbrev SC : Shape := ⟨2, ![8192, 1]⟩
abbrev S1 : Shape := ⟨1, ![1]⟩
abbrev S1x1 : Shape := ⟨2, ![1, 1]⟩
abbrev S1x8 : Shape := ⟨2, ![1, 8]⟩
abbrev S1x1x8 : Shape := ⟨3, ![1, 1, 8]⟩
abbrev S1x1x1 : Shape := ⟨3, ![1, 1, 1]⟩

/-- The word comparison for equality is the bit 1 exactly when the two words are equal. -/
private theorem cmpi_eq_word {w : Nat} (x y : BitVec w) : IntOp.cmpi .eq x y = if x = y then 1#1 else 0#1 := by
  unfold IntOp.cmpi
  by_cases h : x = y
  · rw [if_pos h, h]; simp
  · rw [if_neg h, show (x == y) = false from beq_eq_false_iff_ne.mpr h]; rfl

/-- A lane sum of a block, cast to a column, at row r: the sum over the 128 lanes of that row. -/
theorem rowsum_apply (h1 : SB.Reduces [1] SR) (h2 : SR.ShapeCasts SC) (x : FVec Ideal SB .f32) (r : Fin 8192) :
    shapeCast SC (multiReduction .add [1] SR x 0x00000000#32 h1 (.inl rfl) rfl) h2 (ix2 r 0)
      = ∑ l : Fin 128, x (ix2 r l) := by
  -- the cast reads the reduced vector at r; the reduction there sums over the lane coordinate inserted at axis 1
  rw [Cert.LibColumn.shapeCast_a_a1_apply _ h2 r 0]
  refine (Ideal.multiReduction_add_single x _ h1 (.inl rfl) rfl (ix1 r)).trans ?_
  show ∑ l : Fin 128, x (h1.lift (ix1 r) l) = ∑ l : Fin 128, x (ix2 r l)
  refine Finset.sum_congr rfl fun l _ => congrArg x (funext fun c => Fin.ext ?_)
  match c with
  | ⟨0, _⟩ => rfl
  | ⟨1, _⟩ => rfl

/-- The sum of a column, cast to a [1,1] cell: the sum over the 8192 rows. -/
theorem colsum_apply (h1 : SC.Reduces [0] S1) (h2 : S1.ShapeCasts S1x1) (x : FVec Ideal SC .f32) :
    shapeCast S1x1 (multiReduction .add [0] S1 x 0x00000000#32 h1 (.inl rfl) rfl) h2 (ix2 0 0)
      = ∑ r : Fin 8192, x (ix2 r 0) := by
  -- the cast reads the reduced one-element vector at 0; the reduction there sums over the row coordinate inserted at axis 0
  rw [Cert.LibColumn.shapeCast_a_a1_apply _ h2 0 0]
  refine (Ideal.multiReduction_add_single x _ h1 (.inl rfl) rfl (ix1 0)).trans ?_
  show ∑ r : Fin 8192, x (h1.lift (ix1 0) r) = ∑ r : Fin 8192, x (ix2 r 0)
  refine Finset.sum_congr rfl fun r _ => congrArg x (funext fun c => Fin.ext ?_)
  match c with
  | ⟨0, _⟩ => rfl
  | ⟨1, _⟩ => rfl

/-- The one-hot row of group kw: 1 at position kw, 0 elsewhere. -/
theorem onehot_apply (hi : S1x8.Iotas .tc 32 [1]) (hlt : 1 < 32) (kw k : Fin 8) :
    (sitofp .f32 (extui 32 (cmpi .eq (iota .tc S1x8 32 [1] hi) (broadcast S1x8 (BitVec.ofNat 32 kw.val))) hlt)
        : FVec Ideal S1x8 .f32) (ix2 0 k) = if k = kw then 1 else 0 := by
  -- at (0, k) the iota along axis 1 is the word k; two words below 8 are equal exactly when the numbers are
  rw [sitofp_apply, extui_apply]
  show FloatOps.sitofp (F := Ideal) .f32 ((IntOp.cmpi .eq (iota .tc S1x8 32 [1] hi (ix2 0 k)) (BitVec.ofNat 32 kw.val)).setWidth 32) = _
  rw [iota_single_apply, cmpi_eq_word]
  show FloatOps.sitofp (F := Ideal) .f32 ((if BitVec.ofNat 32 k.val = BitVec.ofNat 32 kw.val then 1#1 else 0#1).setWidth 32) = _
  have hw : (BitVec.ofNat 32 k.val = BitVec.ofNat 32 kw.val) ↔ k = kw := by
    constructor
    · intro h
      have h' := congrArg BitVec.toNat h
      simp only [BitVec.toNat_ofNat] at h'
      have := k.isLt; have := kw.isLt
      exact Fin.ext (by omega)
    · intro h; rw [h]
  by_cases h : k = kw
  · rw [if_pos (hw.mpr h), if_pos h]
    show (((1#1 : BitVec 1).setWidth 32).toInt : ℝ) = (1 : EReal)
    simp
  · rw [if_neg (fun h' => h (hw.mp h')), if_neg h]
    show (((0#1 : BitVec 1).setWidth 32).toInt : ℝ) = (0 : EReal)
    simp

/-- A [1,1] cell broadcast along the row of 8 reads the cell. -/
theorem bcast_cell_apply {α : Type} (h : S1x1.Broadcasts S1x8) (s : S1x1.Idx → α) (k : Fin 8) :
    broadcastTo S1x8 s h (ix2 0 k) = s (ix2 0 0) :=
  Cert.LibColumn.broadcastTo_a1_ab_apply s h 0 k

theorem cast_118_18_apply {α : Type} (h : S1x1x8.ShapeCasts S1x8) (x : S1x1x8.Idx → α) (k : Fin 8) :
    shapeCast S1x8 x h (ix2 0 k) = x (ix3 0 0 k) :=
  shapeCast_1ab_ab_apply x h 0 k
theorem cast_18_118_apply {α : Type} (h : S1x8.ShapeCasts S1x1x8) (x : S1x8.Idx → α) (k : Fin 8) :
    shapeCast S1x1x8 x h (ix3 0 0 k) = x (ix2 0 k) :=
  shapeCast_ab_1ab_apply x h 0 0 k
theorem cast_111_11_apply {α : Type} (h : S1x1x1.ShapeCasts S1x1) (x : S1x1x1.Idx → α) :
    shapeCast S1x1 x h (ix2 0 0) = x (ix3 0 0 0) :=
  shapeCast_1ab_ab_apply x h 0 0
theorem cast_11_111_apply {α : Type} (h : S1x1.ShapeCasts S1x1x1) (x : S1x1.Idx → α) :
    shapeCast S1x1x1 x h (ix3 0 0 0) = x (ix2 0 0) :=
  shapeCast_ab_1ab_apply x h 0 0 0

/-- A select on "this word is kw" is the if-then-else on that equation. -/
theorem select_cmpi_apply {α : Type} (seg : IVec SB 32) (kw : BitVec 32) (a b : SB.Idx → α) (j : SB.Idx) :
    select (cmpi .eq seg (broadcast SB kw)) a b j = if seg j = kw then a j else b j := by
  show Scalar.select (IntOp.cmpi .eq (seg j) kw) (a j) (b j) = _
  rw [cmpi_eq_word]
  by_cases h : seg j = kw
  · rw [if_pos h, if_pos h, select_one]
  · rw [if_neg h, if_neg h, select_zero]

/-- The same when the comparison was made earlier and arrives as a mask. -/
theorem select_mask_apply {α : Type} (seg : IVec SB 32) (kw : BitVec 32) (mask : IVec SB 1)
    (hm : mask = cmpi .eq seg (broadcast SB kw)) (a b : SB.Idx → α) (j : SB.Idx) :
    select mask a b j = if seg j = kw then a j else b j := by
  rw [hm]; exact select_cmpi_apply seg kw a b j

/-- Every index of a [1,1,8] array is (0,0,k); of [1,1,1] is (0,0,0); of [1,1] is (0,0). -/
theorem idx118 (j : S1x1x8.Idx) : j = ix3 0 0 (j 2) := by
  have h0 : (j 0).val < 1 := (j 0).isLt
  have h1 : (j 1).val < 1 := (j 1).isLt
  funext a
  match a with
  | ⟨0, _⟩ => exact Fin.ext (by show (j 0).val = 0; omega)
  | ⟨1, _⟩ => exact Fin.ext (by show (j 1).val = 0; omega)
  | ⟨2, _⟩ => rfl
theorem idx111 (j : S1x1x1.Idx) : j = ix3 0 0 0 := by
  have h0 : (j 0).val < 1 := (j 0).isLt
  have h1 : (j 1).val < 1 := (j 1).isLt
  have h2 : (j 2).val < 1 := (j 2).isLt
  funext a
  match a with
  | ⟨0, _⟩ => exact Fin.ext (by show (j 0).val = 0; omega)
  | ⟨1, _⟩ => exact Fin.ext (by show (j 1).val = 0; omega)
  | ⟨2, _⟩ => exact Fin.ext (by show (j 2).val = 0; omega)

end Cert.FairOps

end
-- ==== Proof.BlockMath.lean ====
/-
  Extended-real arithmetic behind the kernel's packing of two counts into one number.

  For a binary prediction p and label t the kernel forms t * (256 - 255 p), which is 1 for a true positive,
  256 for a false negative and 0 otherwise: tpm p t + 256 * fnm p t. A row of fewer than 256 such terms sums
  to A + 256 B with A < 256 the row's true positives and B its false negatives, so floor(sum / 256) = B and
  sum - 256 B = A. Also here: the sum of eight terms each masked by a one-hot vector picks one term, a chain of
  partial sums restarted every 8 steps ends each run at that run's sum, and the sum over 2^24 samples is the
  sum over 16 blocks x 8192 rows x 128 lanes.
-/
import Idealize.ShloMosaic.PureOps.Ideal
import proofs.«406738_j86990267613933_3_alg».proof.Proof.Spec

noncomputable section

open scoped BigOperators

namespace Cert.FairMath

open Idealize.ShloMosaic Cert.FairSpec

/-- The kernel's float literals at the ideal instance. -/
abbrev c256 : EReal := Ideal.ofBits .f32 0x43800000#32
abbrev c255 : EReal := Ideal.ofBits .f32 0x437F0000#32
abbrev cinv256 : EReal := Ideal.ofBits .f32 0x3B800000#32
abbrev czero : EReal := Ideal.ofBits .f32 0x00000000#32

theorem czero_eq : czero = 0 := by
  simp [Ideal.ofBits, Ideal.ieee]
theorem c256_eq : c256 = ((256 : ℝ) : EReal) := by
  simp [Ideal.ofBits, Ideal.ieee, -EReal.coe_mul]; norm_num
theorem c255_eq : c255 = ((255 : ℝ) : EReal) := by
  simp [Ideal.ofBits, Ideal.ieee, -EReal.coe_mul]; norm_num
theorem cinv256_eq : cinv256 = (((1 : ℝ) / 256 : ℝ) : EReal) := by
  simp [Ideal.ofBits, Ideal.ieee, -EReal.coe_mul]; norm_num

/-- One sample: for binary p and t, t * (256 - 255 p) is the true-positive indicator plus 256 times the
    false-negative indicator. -/
theorem packed_eq (p t : EReal) (hp : p = 0 ∨ p = 1) (ht : t = 0 ∨ t = 1) :
    t * (c256 - c255 * p) = tpm p t + c256 * fnm p t := by
  rw [c256_eq, c255_eq]
  rcases hp with rfl | rfl <;> rcases ht with rfl | rfl
  · simp [tpm, fnm]
  · simp [tpm, fnm]
  · simp [tpm, fnm]
  · -- p = 1, t = 1: 256 - 255 = 1 among the reals
    have h : ((256 : ℝ) : EReal) - ((255 : ℝ) : EReal) = 1 := by
      rw [← EReal.coe_sub, ← EReal.coe_one]; norm_num
    simp [tpm, fnm, h]

/-- One sample's squared error for binary p and t is an indicator too (not needed for the proof's logic, a sanity fact). -/
theorem sqm_binary (p t : EReal) (hp : p = 0 ∨ p = 1) (ht : t = 0 ∨ t = 1) : sqm p t = if p = t then 0 else 1 := by
  have h01 : ((0 : ℝ) : EReal) - ((1 : ℝ) : EReal) = ((-1 : ℝ) : EReal) := by
    rw [← EReal.coe_sub]; norm_num
  have h10 : ((1 : ℝ) : EReal) - ((0 : ℝ) : EReal) = ((1 : ℝ) : EReal) := by
    rw [← EReal.coe_sub]; norm_num
  have hm : ((-1 : ℝ) : EReal) * ((-1 : ℝ) : EReal) = ((1 : ℝ) : EReal) := by
    rw [← EReal.coe_mul]; norm_num
  rcases hp with rfl | rfl <;> rcases ht with rfl | rfl
  · simp [sqm]
  · rw [if_neg (by simp), sqm, ← EReal.coe_zero, ← EReal.coe_one, h01, hm]
  · rw [if_neg (by simp), sqm, ← EReal.coe_zero, ← EReal.coe_one, h10]; simp
  · have h11 : (1 : EReal) - 1 = 0 := by
      rw [← EReal.coe_one, ← EReal.coe_sub, sub_self, EReal.coe_zero]
    simp [sqm, h11]

/-- The cast of the reals into the extended reals commutes with finite sums. -/
private theorem coe_sum_real {ι : Type} (s : Finset ι) (f : ι → ℝ) :
    ∑ l ∈ s, ((f l : ℝ) : EReal) = ((∑ l ∈ s, f l : ℝ) : EReal) := by
  classical
  induction s using Finset.induction_on with
  | empty => simp
  | insert a s ha ih => rw [Finset.sum_insert ha, Finset.sum_insert ha, ih, EReal.coe_add]

/-- One masked sample as natural numbers: the packed term is a + 256 b with a the true-positive and b the
    false-negative indicator, both read as naturals, and a is at most 1. -/
private theorem term_nat (c : Prop) [Decidable c] (p t : EReal) (hp : p = 0 ∨ p = 1) (ht : t = 0 ∨ t = 1) :
    ∃ a b : ℕ, a ≤ 1 ∧
      (if c then t * (c256 - c255 * p) else czero) = (((a + 256 * b : ℕ) : ℝ) : EReal) ∧
      (if c then tpm p t else 0) = (((a : ℕ) : ℝ) : EReal) ∧
      (if c then fnm p t else 0) = (((b : ℕ) : ℝ) : EReal) := by
  by_cases hc : c
  · simp only [if_pos hc]
    rw [packed_eq p t hp ht, c256_eq]
    rcases hp with rfl | rfl <;> rcases ht with rfl | rfl
    · exact ⟨0, 0, le_of_lt Nat.zero_lt_one, by simp [tpm, fnm], by simp [tpm], by simp [fnm]⟩
    · exact ⟨0, 1, le_of_lt Nat.zero_lt_one, by simp [tpm, fnm], by simp [tpm], by simp [fnm]⟩
    · exact ⟨0, 0, le_of_lt Nat.zero_lt_one, by simp [tpm, fnm], by simp [tpm], by simp [fnm]⟩
    · exact ⟨1, 0, le_refl 1, by simp [tpm, fnm], by simp [tpm], by simp [fnm]⟩
  · simp only [if_neg hc]
    exact ⟨0, 0, le_of_lt Nat.zero_lt_one, by simp [czero_eq], by simp, by simp⟩

section Row
variable {ι : Type} [Fintype ι] (cond : ι → Prop) [DecidablePred cond] (p t : ι → EReal)

/-- The row's masked sum of packed terms. -/
def rowV : EReal := ∑ l, if cond l then t l * (c256 - c255 * p l) else czero

/-- The row in natural numbers: its packed sum is A + 256 B with A < 256 its true positives and B its
    false negatives. -/
private theorem row_nat (hcard : Fintype.card ι < 256) (hp : ∀ l, p l = 0 ∨ p l = 1) (ht : ∀ l, t l = 0 ∨ t l = 1) :
    ∃ A B : ℕ, A < 256 ∧ rowV cond p t = (((A + 256 * B : ℕ) : ℝ) : EReal) ∧
      (∑ l, if cond l then tpm (p l) (t l) else 0) = (((A : ℕ) : ℝ) : EReal) ∧
      (∑ l, if cond l then fnm (p l) (t l) else 0) = (((B : ℕ) : ℝ) : EReal) := by
  choose a b ha h1 h2 h3 using fun l => term_nat (cond l) (p l) (t l) (hp l) (ht l)
  refine ⟨∑ l, a l, ∑ l, b l, ?_, ?_, ?_, ?_⟩
  · calc ∑ l, a l ≤ ∑ _l : ι, 1 := Finset.sum_le_sum fun l _ => ha l
      _ = Fintype.card ι := by simp
      _ < 256 := hcard
  · unfold rowV
    simp_rw [h1]
    rw [coe_sum_real]
    congr 1
    push_cast
    rw [Finset.sum_add_distrib, Finset.mul_sum]
  · simp_rw [h2]
    rw [coe_sum_real]
    congr 1
    push_cast
    rfl
  · simp_rw [h3]
    rw [coe_sum_real]
    congr 1
    push_cast
    rfl

/-- floor((A + 256 B) / 256) = B for naturals A < 256 and B. -/
private theorem floor_packed (A B : ℕ) (hA : A < 256) :
    ⌊(((A + 256 * B : ℕ) : ℝ)) * ((1 : ℝ) / 256)⌋ = (B : ℤ) := by
  have hA' : (A : ℝ) < 256 := by exact_mod_cast hA
  have hA0 : (0 : ℝ) ≤ (A : ℝ) := Nat.cast_nonneg A
  rw [Int.floor_eq_iff]
  push_cast
  constructor
  · linarith
  · linarith

/-- floor(row sum / 256) is the row's false negatives, when the row has fewer than 256 entries. -/
theorem row_floor (hcard : Fintype.card ι < 256) (hp : ∀ l, p l = 0 ∨ p l = 1) (ht : ∀ l, t l = 0 ∨ t l = 1) :
    Ideal.liftRound Int.floor (rowV cond p t * cinv256) = ∑ l, if cond l then fnm (p l) (t l) else 0 := by
  obtain ⟨A, B, hA, hV, _, hF⟩ := row_nat cond p t hcard hp ht
  rw [hV, hF, cinv256_eq, ← EReal.coe_mul, Ideal.liftRound_coe, floor_packed A B hA]
  push_cast
  rfl

/-- row sum - 256 * floor(row sum / 256) is the row's true positives. -/
theorem row_rem (hcard : Fintype.card ι < 256) (hp : ∀ l, p l = 0 ∨ p l = 1) (ht : ∀ l, t l = 0 ∨ t l = 1) :
    rowV cond p t - c256 * Ideal.liftRound Int.floor (rowV cond p t * cinv256)
      = ∑ l, if cond l then tpm (p l) (t l) else 0 := by
  obtain ⟨A, B, hA, hV, hT, _⟩ := row_nat cond p t hcard hp ht
  rw [hV, hT, cinv256_eq, c256_eq, ← EReal.coe_mul, Ideal.liftRound_coe, floor_packed A B hA,
    ← EReal.coe_mul, ← EReal.coe_sub]
  congr 1
  push_cast
  ring
end Row

/-- Eight terms, term j masked by the one-hot vector of j, added in order from zero: at position k the sum is term k. -/
theorem onehot_acc (s : Fin 8 → EReal) (e : Fin 8 → Fin 8 → EReal) (he : ∀ j k, e j k = if k = j then 1 else 0)
    (z : EReal) (hz : z = 0) (k : Fin 8) :
    (((((((z + s 0 * e 0 k) + s 1 * e 1 k) + s 2 * e 2 k) + s 3 * e 3 k) + s 4 * e 4 k) + s 5 * e 5 k)
      + s 6 * e 6 k) + s 7 * e 7 k = s k := by
  subst hz
  simp only [he]
  fin_cases k <;> simp

/-- Partial sums restarted at every multiple of 8: after step 8c+7 they hold the sum of steps 8c … 8c+7. -/
theorem chain8 (N : ℕ) (g P : ℕ → EReal) (hA : ∀ n, n < N → n % 8 = 0 → P n = g n)
    (hB : ∀ n, n < N → n % 8 ≠ 0 → P n = P (n - 1) + g n) (c : ℕ) (hc : 8 * c + 7 < N) :
    P (8 * c + 7) = ∑ j : Fin 8, g (8 * c + j.val) := by
  have h0 : P (8 * c) = g (8 * c) := hA _ (by omega) (by omega)
  have hs : ∀ m, 1 ≤ m → m ≤ 7 → P (8 * c + m) = P (8 * c + (m - 1)) + g (8 * c + m) := by
    intro m hm1 hm7
    have h := hB (8 * c + m) (by omega) (by omega)
    have e : 8 * c + m - 1 = 8 * c + (m - 1) := by omega
    rw [e] at h
    exact h
  have h1 := hs 1 (by omega) (by omega)
  have h2 := hs 2 (by omega) (by omega)
  have h3 := hs 3 (by omega) (by omega)
  have h4 := hs 4 (by omega) (by omega)
  have h5 := hs 5 (by omega) (by omega)
  have h6 := hs 6 (by omega) (by omega)
  have h7 := hs 7 (by omega) (by omega)
  simp only [Nat.add_one_sub_one, Nat.reduceSub, Nat.add_zero] at h1 h2 h3 h4 h5 h6 h7
  rw [Fin.sum_univ_eight, h7, h6, h5, h4, h3, h2, h1, h0]
  rfl

/-- Block, row and lane of a flat sample index, as a bijection (row-major). -/
private def flatEquiv : Fin 16 × Fin 8192 × Fin 128 ≃ Fin 16777216 where
  toFun x := ⟨(x.1.val * 8192 + x.2.1.val) * 128 + x.2.2.val, by
    have := x.1.isLt; have := x.2.1.isLt; have := x.2.2.isLt; omega⟩
  invFun i := (⟨i.val / 1048576, by have := i.isLt; omega⟩, ⟨i.val / 128 % 8192, by omega⟩,
    ⟨i.val % 128, by omega⟩)
  left_inv x := by
    obtain ⟨⟨b, hb⟩, ⟨r, hr⟩, ⟨l, hl⟩⟩ := x
    simp only [Prod.mk.injEq, Fin.mk.injEq]
    refine ⟨?_, ?_, ?_⟩ <;> omega
  right_inv i := by
    obtain ⟨i, hi⟩ := i
    simp only [Fin.mk.injEq]
    omega

/-- The 2^24 samples, block by block (16 blocks of 8192 rows of 128 lanes, row-major). -/
theorem sum_flat (f : Fin 16777216 → EReal) :
    ∑ i, f i = ∑ b : Fin 16, ∑ r : Fin 8192, ∑ l : Fin 128,
      f ⟨(b.val * 8192 + r.val) * 128 + l.val, by have := b.isLt; have := r.isLt; have := l.isLt; omega⟩ := by
  rw [← Equiv.sum_comp flatEquiv f, Fintype.sum_prod_type]
  refine Finset.sum_congr rfl fun b _ => ?_
  rw [Fintype.sum_prod_type]
  rfl

/-- Core and step of a block index, as a bijection. -/
private def pointEquiv : Fin 2 × Fin 8 ≃ Fin 16 where
  toFun x := ⟨8 * x.1.val + x.2.val, by have := x.1.isLt; have := x.2.isLt; omega⟩
  invFun i := (⟨i.val / 8, by have := i.isLt; omega⟩, ⟨i.val % 8, by omega⟩)
  left_inv x := by
    obtain ⟨⟨c, hc⟩, ⟨j, hj⟩⟩ := x
    simp only [Prod.mk.injEq, Fin.mk.injEq]
    refine ⟨?_, ?_⟩ <;> omega
  right_inv i := by
    obtain ⟨i, hi⟩ := i
    simp only [Fin.mk.injEq]
    omega

/-- The 16 blocks are 2 cores x 8 steps. -/
theorem sum_points (g : Fin 16 → EReal) :
    ∑ b, g b = ∑ c : Fin 2, ∑ j : Fin 8, g ⟨8 * c.val + j.val, by have := c.isLt; have := j.isLt; omega⟩ := by
  rw [← Equiv.sum_comp pointEquiv g, Fintype.sum_prod_type]
  rfl

end Cert.FairMath

end
-- ==== Proof.KSem.lean ====
/-
  The kernel body's arithmetic, read at the ideal instance under the hypothesis that predictions and labels in
  the block are 0 or 1. Per group k and row r the body sums, over the row's 128 lanes, the packed term
  t (256 - 255 p) of the lanes whose word is k; by the packing arithmetic the floor of that sum over 256 is the
  row's false negatives of group k and the remainder its true positives. Summing over the 8192 rows gives the
  block's counts; the one-hot accumulation places group k's count at position k; the body adds the row of counts
  to what the output block held. The squared-error cell gains the block's sum of (p - t)^2.
-/
import proofs.«406738_j86990267613933_3_alg».proof.Proof.KStep
import proofs.«406738_j86990267613933_3_alg».proof.Proof.BlockOps
import proofs.«406738_j86990267613933_3_alg».proof.Proof.BlockMath
import Idealize.ShloMosaic.Lib.Pipeline.Value
import Idealize.ShloMosaic.Lib.ValueIdx

noncomputable section

open scoped BigOperators

namespace Cert.FairSem

open Idealize.ShloMosaic Idealize.ShloMosaic.ValueIdx
open Cert.KernelIdeal Cert.KernelIdeal.Gen
open Cert.FairSpec Cert.FairMath Cert.FairBody

variable (x0 : IVec S8192x128 32) (x1 x2 : FVec Ideal S8192x128 .f32)

/-- The block's counts of group k and its squared error. -/
def blockTP (k : Fin 8) : EReal :=
  ∑ r : Fin 8192, ∑ l : Fin 128, if x0 (ix2 r l) = gw k then tpm (x1 (ix2 r l)) (x2 (ix2 r l)) else 0
def blockFN (k : Fin 8) : EReal :=
  ∑ r : Fin 8192, ∑ l : Fin 128, if x0 (ix2 r l) = gw k then fnm (x1 (ix2 r l)) (x2 (ix2 r l)) else 0
def blockSQ : EReal := ∑ r : Fin 8192, ∑ l : Fin 128, sqm (x1 (ix2 r l)) (x2 (ix2 r l))

/-- The block's words and packed terms as the body names them. -/
abbrev sg : IVec S8192x128 32 := k0_pay5 (F := Ideal) x0
abbrev pk : FVec Ideal S8192x128 .f32 := k0_pay9 (F := Ideal) x1 x2
abbrev rs0 : FVec Ideal S8192 .f32 := k0_pay12 (F := Ideal) x0 x1 x2

/-- The words of the block, and the packed term at one entry. -/
theorem seg_eq : k0_pay5 (F := Ideal) x0 = x0 := shapeCast_self _ _

theorem pk_apply (j : S8192x128.Idx) : k0_pay9 (F := Ideal) x1 x2 j = x2 j * (c256 - c255 * x1 j) := by
  show mulf (F := Ideal) (shapeCast S8192x128 (x2 : S8192x128.Idx → Ideal .f32) _) (subf (broadcast S8192x128 _) (mulf (broadcast S8192x128 _) (shapeCast S8192x128 (x1 : S8192x128.Idx → Ideal .f32) _))) j = _
  rw [shapeCast_self, shapeCast_self]
  rfl

/-- Row r's masked sum of packed terms for group k. -/
def rv (k : Fin 8) (r : Fin 8192) : EReal :=
  rowV (fun l : Fin 128 => x0 (ix2 r l) = gw k) (fun l => x1 (ix2 r l)) (fun l => x2 (ix2 r l))

/-- … and its floor over 256. -/
def fl (k : Fin 8) (r : Fin 8192) : EReal := Ideal.liftRound Int.floor (rv x0 x1 x2 k r * cinv256)

theorem rowcol_apply (kw : Fin 8) (h1 : S8192x128.Reduces [1] S8192) (h2 : S8192.ShapeCasts S8192x1) (r : Fin 8192) :
    shapeCast S8192x1 (multiReduction .add [1] S8192
        (select (cmpi .eq (k0_pay5 (F := Ideal) x0) (broadcast S8192x128 (BitVec.ofNat 32 kw.val))) (k0_pay9 (F := Ideal) x1 x2)
          (broadcast S8192x128 (Scalar.ofBits (F := Ideal) .f32 0x00000000#32)))
        0x00000000#32 h1 (.inl rfl) rfl) h2 (ix2 r 0) = rv x0 x1 x2 kw r := by
  rw [FairOps.rowsum_apply]
  unfold rv rowV
  refine Finset.sum_congr rfl fun l _ => ?_
  rw [FairOps.select_cmpi_apply, seg_eq, pk_apply]
  rfl

/-- The eight row columns the body computes are the row sums of groups 0 … 7. -/
theorem col0 (r : Fin 8192) : k0_pay13 (F := Ideal) (rs0 x0 x1 x2) (ix2 r 0) = rv x0 x1 x2 0 r := rowcol_apply x0 x1 x2 0 _ _ r
theorem col1 (r : Fin 8192) : k0_pay17 (F := Ideal) (sg x0) (pk x1 x2) (ix2 r 0) = rv x0 x1 x2 1 r := rowcol_apply x0 x1 x2 1 _ _ r
theorem col2 (r : Fin 8192) : k0_pay22 (F := Ideal) (sg x0) (pk x1 x2) (ix2 r 0) = rv x0 x1 x2 2 r := rowcol_apply x0 x1 x2 2 _ _ r
theorem col3 (r : Fin 8192) : k0_pay27 (F := Ideal) (sg x0) (pk x1 x2) (ix2 r 0) = rv x0 x1 x2 3 r := rowcol_apply x0 x1 x2 3 _ _ r
theorem col4 (r : Fin 8192) : k0_pay32 (F := Ideal) (sg x0) (pk x1 x2) (ix2 r 0) = rv x0 x1 x2 4 r := rowcol_apply x0 x1 x2 4 _ _ r
theorem col5 (r : Fin 8192) : k0_pay37 (F := Ideal) (sg x0) (pk x1 x2) (ix2 r 0) = rv x0 x1 x2 5 r := rowcol_apply x0 x1 x2 5 _ _ r
theorem col6 (r : Fin 8192) : k0_pay40 (F := Ideal) (sg x0) (pk x1 x2) (ix2 r 0) = rv x0 x1 x2 6 r := rowcol_apply x0 x1 x2 6 _ _ r
theorem col7 (r : Fin 8192) : k0_pay46 (F := Ideal) (pk x1 x2) (k0_pay45 (sg x0)) (ix2 r 0) = rv x0 x1 x2 7 r := rowcol_apply x0 x1 x2 7 _ _ r

/-- … and the eight floor columns their floors over 256. -/
theorem flo0 (r : Fin 8192) : k0_pay14 (F := Ideal) (rs0 x0 x1 x2) (ix2 r 0) = fl x0 x1 x2 0 r := by
  show Ideal.liftRound Int.floor (k0_pay13 (F := Ideal) (rs0 x0 x1 x2) (ix2 r 0) * cinv256) = _; rw [col0]; rfl
theorem flo1 (r : Fin 8192) : k0_pay18 (F := Ideal) (sg x0) (pk x1 x2) (ix2 r 0) = fl x0 x1 x2 1 r := by
  show Ideal.liftRound Int.floor (k0_pay17 (F := Ideal) (sg x0) (pk x1 x2) (ix2 r 0) * cinv256) = _; rw [col1]; rfl
theorem flo2 (r : Fin 8192) : k0_pay23 (F := Ideal) (sg x0) (pk x1 x2) (ix2 r 0) = fl x0 x1 x2 2 r := by
  show Ideal.liftRound Int.floor (k0_pay22 (F := Ideal) (sg x0) (pk x1 x2) (ix2 r 0) * cinv256) = _; rw [col2]; rfl
theorem flo3 (r : Fin 8192) : k0_pay28 (F := Ideal) (sg x0) (pk x1 x2) (ix2 r 0) = fl x0 x1 x2 3 r := by
  show Ideal.liftRound Int.floor (k0_pay27 (F := Ideal) (sg x0) (pk x1 x2) (ix2 r 0) * cinv256) = _; rw [col3]; rfl
theorem flo4 (r : Fin 8192) : k0_pay33 (F := Ideal) (sg x0) (pk x1 x2) (ix2 r 0) = fl x0 x1 x2 4 r := by
  show Ideal.liftRound Int.floor (k0_pay32 (F := Ideal) (sg x0) (pk x1 x2) (ix2 r 0) * cinv256) = _; rw [col4]; rfl
theorem flo5 (r : Fin 8192) : k0_pay38 (F := Ideal) (sg x0) (pk x1 x2) (ix2 r 0) = fl x0 x1 x2 5 r := by
  show Ideal.liftRound Int.floor (k0_pay37 (F := Ideal) (sg x0) (pk x1 x2) (ix2 r 0) * cinv256) = _; rw [col5]; rfl
theorem flo6 (r : Fin 8192) : k0_pay41 (F := Ideal) (sg x0) (pk x1 x2) (ix2 r 0) = fl x0 x1 x2 6 r := by
  show Ideal.liftRound Int.floor (k0_pay40 (F := Ideal) (sg x0) (pk x1 x2) (ix2 r 0) * cinv256) = _; rw [col6]; rfl
theorem flo7 (r : Fin 8192) : k0_pay47 (F := Ideal) (pk x1 x2) (k0_pay45 (sg x0)) (ix2 r 0) = fl x0 x1 x2 7 r := by
  show Ideal.liftRound Int.floor (k0_pay46 (F := Ideal) (pk x1 x2) (k0_pay45 (sg x0)) (ix2 r 0) * cinv256) = _; rw [col7]; rfl

/-! ## The block's counts from the row sums -/

theorem card128 : Fintype.card (Fin 128) < 256 := by simp

/-- Group k's remainders summed over the rows, and its floors summed over the rows. -/
def tsum (k : Fin 8) : EReal := ∑ r : Fin 8192, (rv x0 x1 x2 k r - c256 * fl x0 x1 x2 k r)
def fsum (k : Fin 8) : EReal := ∑ r : Fin 8192, fl x0 x1 x2 k r

section Counts
variable (hb1 : ∀ j, x1 j = 0 ∨ x1 j = 1) (hb2 : ∀ j, x2 j = 0 ∨ x2 j = 1)
include hb1 hb2

theorem tsum_eq (k : Fin 8) : tsum x0 x1 x2 k = blockTP x0 x1 x2 k := by
  unfold tsum blockTP
  refine Finset.sum_congr rfl fun r _ => ?_
  exact row_rem (fun l : Fin 128 => x0 (ix2 r l) = gw k) (fun l => x1 (ix2 r l)) (fun l => x2 (ix2 r l)) card128
    (fun l => hb1 _) (fun l => hb2 _)

theorem fsum_eq (k : Fin 8) : fsum x0 x1 x2 k = blockFN x0 x1 x2 k := by
  unfold fsum blockFN
  refine Finset.sum_congr rfl fun r _ => ?_
  exact row_floor (fun l : Fin 128 => x0 (ix2 r l) = gw k) (fun l => x1 (ix2 r l)) (fun l => x2 (ix2 r l)) card128
    (fun l => hb1 _) (fun l => hb2 _)
end Counts

/-! ## The cells and the one-hot rows -/

/-- The cell holding a group's summed remainders, and the cell holding its summed floors. -/
theorem tpcell (RV FL : FVec Ideal S8192x1 .f32) (h1 : S8192x1.Reduces [0] Cert.KernelIdeal.S1) (h2 : Cert.KernelIdeal.S1.ShapeCasts Cert.KernelIdeal.S1x1) :
    shapeCast Cert.KernelIdeal.S1x1 (multiReduction .add [0] Cert.KernelIdeal.S1
      (subf RV (mulf (broadcast S8192x1 (Scalar.ofBits (F := Ideal) .f32 0x43800000#32)) FL)) 0x00000000#32 h1 (.inl rfl) rfl) h2 (ix2 0 0)
      = ∑ r : Fin 8192, (RV (ix2 r 0) - c256 * FL (ix2 r 0)) := by
  rw [FairOps.colsum_apply]; rfl

theorem fncell (FL : FVec Ideal S8192x1 .f32) (h1 : S8192x1.Reduces [0] Cert.KernelIdeal.S1) (h2 : Cert.KernelIdeal.S1.ShapeCasts Cert.KernelIdeal.S1x1) :
    shapeCast Cert.KernelIdeal.S1x1 (multiReduction .add [0] Cert.KernelIdeal.S1 FL 0x00000000#32 h1 (.inl rfl) rfl) h2 (ix2 0 0)
      = ∑ r : Fin 8192, FL (ix2 r 0) := FairOps.colsum_apply _ _ _

theorem oh0 (k : Fin 8) : k0_pay15 (F := Ideal) (ix2 0 k) = if k = 0 then 1 else 0 := FairOps.onehot_apply _ _ 0 k
theorem oh1 (k : Fin 8) : k0_pay19 (F := Ideal) (ix2 0 k) = if k = 1 then 1 else 0 := FairOps.onehot_apply _ _ 1 k
theorem oh2 (k : Fin 8) : k0_pay24 (F := Ideal) (ix2 0 k) = if k = 2 then 1 else 0 := FairOps.onehot_apply _ _ 2 k
theorem oh3 (k : Fin 8) : k0_pay31 (F := Ideal) (ix2 0 k) = if k = 3 then 1 else 0 := FairOps.onehot_apply _ _ 3 k
theorem oh4 (k : Fin 8) : k0_pay34 (F := Ideal) (ix2 0 k) = if k = 4 then 1 else 0 := FairOps.onehot_apply _ _ 4 k
theorem oh5 (k : Fin 8) : k0_pay39 (F := Ideal) (ix2 0 k) = if k = 5 then 1 else 0 := FairOps.onehot_apply _ _ 5 k
theorem oh6 (k : Fin 8) : k0_pay42 (F := Ideal) (ix2 0 k) = if k = 6 then 1 else 0 := FairOps.onehot_apply _ _ 6 k
theorem oh7 (k : Fin 8) : k0_pay48 (F := Ideal) (ix2 0 k) = if k = 7 then 1 else 0 := FairOps.onehot_apply _ _ 7 k

/-! ## The true-positive row: the accumulation, payload by payload -/

theorem accT20 (v26 : FVec Ideal Cert.KernelIdeal.S1x8 .f32) (k : Fin 8) :
    k0_pay20 (F := Ideal) (sg x0) (pk x1 x2) v26 (rs0 x0 x1 x2) (ix2 0 k)
      = (v26 (ix2 0 k) + tsum x0 x1 x2 0 * (if k = 0 then 1 else 0)) + tsum x0 x1 x2 1 * (if k = 1 then 1 else 0) := by
  unfold k0_pay20; dsimp only
  simp only [addf_apply, mulf_apply]
  rw [FairOps.bcast_cell_apply, FairOps.bcast_cell_apply, tpcell, tpcell, oh0, oh1]
  simp only [col0, flo0, col1, flo1]
  rfl

theorem accT25 (v78 : FVec Ideal Cert.KernelIdeal.S1x8 .f32) (k : Fin 8) :
    k0_pay25 (F := Ideal) (sg x0) (pk x1 x2) v78 (ix2 0 k)
      = v78 (ix2 0 k) + tsum x0 x1 x2 2 * (if k = 2 then 1 else 0) := by
  unfold k0_pay25; dsimp only
  simp only [addf_apply, mulf_apply]
  rw [FairOps.bcast_cell_apply, tpcell, oh2]
  simp only [col2, flo2]
  rfl

theorem cellT29 : k0_pay29 (F := Ideal) (sg x0) (pk x1 x2) (ix2 0 0) = tsum x0 x1 x2 3 := by
  unfold k0_pay29; dsimp only
  rw [tpcell]
  simp only [col3, flo3]
  rfl

theorem accT35 (v105 : FVec Ideal Cert.KernelIdeal.S1x8 .f32) (v122 : FVec Ideal Cert.KernelIdeal.S1x1 .f32) (k : Fin 8) :
    k0_pay35 (F := Ideal) (sg x0) (pk x1 x2) v105 v122 (ix2 0 k)
      = (v105 (ix2 0 k) + v122 (ix2 0 0) * (if k = 3 then 1 else 0)) + tsum x0 x1 x2 4 * (if k = 4 then 1 else 0) := by
  unfold k0_pay35; dsimp only
  simp only [addf_apply, mulf_apply]
  rw [FairOps.bcast_cell_apply, FairOps.bcast_cell_apply, tpcell, oh3, oh4]
  simp only [col4, flo4]
  rfl

theorem accT43 (v159 : FVec Ideal Cert.KernelIdeal.S1x8 .f32) (k : Fin 8) :
    k0_pay43 (F := Ideal) (sg x0) (pk x1 x2) v159 (k0_pay37 (sg x0) (pk x1 x2)) (k0_pay38 (sg x0) (pk x1 x2)) (ix2 0 k)
      = (v159 (ix2 0 k) + tsum x0 x1 x2 5 * (if k = 5 then 1 else 0)) + tsum x0 x1 x2 6 * (if k = 6 then 1 else 0) := by
  unfold k0_pay43; dsimp only
  simp only [addf_apply, mulf_apply]
  rw [FairOps.bcast_cell_apply, FairOps.bcast_cell_apply, tpcell, tpcell, oh5, oh6]
  simp only [col5, flo5, col6, flo6]
  rfl

theorem accT49 (v213 : FVec Ideal Cert.KernelIdeal.S1x8 .f32) (xo : FVec Ideal Cert.KernelIdeal.S1x1x8 .f32) (k : Fin 8) :
    k0_pay49 (F := Ideal) (pk x1 x2) v213 (k0_pay45 (sg x0)) xo (ix3 0 0 k)
      = xo (ix3 0 0 k) + (v213 (ix2 0 k) + tsum x0 x1 x2 7 * (if k = 7 then 1 else 0)) := by
  unfold k0_pay49; dsimp only
  rw [FairOps.cast_18_118_apply]
  simp only [addf_apply, mulf_apply]
  rw [FairOps.cast_118_18_apply, FairOps.bcast_cell_apply, tpcell, oh7]
  simp only [col7, flo7]
  rfl

/-! ## The false-negative row: the same accumulation over the summed floors -/

theorem accF16 (v27 : FVec Ideal Cert.KernelIdeal.S1x8 .f32) (k : Fin 8) :
    k0_pay16 (F := Ideal) v27 (rs0 x0 x1 x2) (ix2 0 k)
      = v27 (ix2 0 k) + fsum x0 x1 x2 0 * (if k = 0 then 1 else 0) := by
  unfold k0_pay16; dsimp only
  simp only [addf_apply, mulf_apply]
  rw [FairOps.bcast_cell_apply, fncell, oh0]
  simp only [flo0]
  rfl

theorem bcF21 (k : Fin 8) : k0_pay21 (F := Ideal) (sg x0) (pk x1 x2) (ix2 0 k) = fsum x0 x1 x2 1 := by
  unfold k0_pay21; dsimp only
  rw [FairOps.bcast_cell_apply, fncell]
  simp only [flo1]
  rfl

theorem accF26 (v54 v75 v79 : FVec Ideal Cert.KernelIdeal.S1x8 .f32) (k : Fin 8) :
    k0_pay26 (F := Ideal) (sg x0) (pk x1 x2) v54 v75 v79 (ix2 0 k)
      = (v54 (ix2 0 k) + v79 (ix2 0 k) * v75 (ix2 0 k)) + fsum x0 x1 x2 2 * (if k = 2 then 1 else 0) := by
  unfold k0_pay26; dsimp only
  simp only [addf_apply, mulf_apply]
  rw [FairOps.bcast_cell_apply, fncell, oh2]
  simp only [flo2]
  rfl

theorem cellF30 : k0_pay30 (F := Ideal) (sg x0) (pk x1 x2) (ix2 0 0) = fsum x0 x1 x2 3 := by
  unfold k0_pay30; dsimp only
  rw [fncell]
  simp only [flo3]
  rfl

theorem accF36 (v108 : FVec Ideal Cert.KernelIdeal.S1x8 .f32) (v124 : FVec Ideal Cert.KernelIdeal.S1x1 .f32) (k : Fin 8) :
    k0_pay36 (F := Ideal) (sg x0) (pk x1 x2) v108 v124 (ix2 0 k)
      = (v108 (ix2 0 k) + v124 (ix2 0 0) * (if k = 3 then 1 else 0)) + fsum x0 x1 x2 4 * (if k = 4 then 1 else 0) := by
  unfold k0_pay36; dsimp only
  simp only [addf_apply, mulf_apply]
  rw [FairOps.bcast_cell_apply, FairOps.bcast_cell_apply, fncell, oh3, oh4]
  simp only [flo4]
  rfl

theorem accF44 (v162 : FVec Ideal Cert.KernelIdeal.S1x8 .f32) (k : Fin 8) :
    k0_pay44 (F := Ideal) (sg x0) (pk x1 x2) v162 (k0_pay38 (sg x0) (pk x1 x2)) (ix2 0 k)
      = (v162 (ix2 0 k) + fsum x0 x1 x2 5 * (if k = 5 then 1 else 0)) + fsum x0 x1 x2 6 * (if k = 6 then 1 else 0) := by
  unfold k0_pay44; dsimp only
  simp only [addf_apply, mulf_apply]
  rw [FairOps.bcast_cell_apply, FairOps.bcast_cell_apply, fncell, fncell, oh5, oh6]
  simp only [flo5, flo6]
  rfl

theorem accF50 (v216 : FVec Ideal Cert.KernelIdeal.S1x8 .f32) (xo : FVec Ideal Cert.KernelIdeal.S1x1x8 .f32) (k : Fin 8) :
    k0_pay50 (F := Ideal) (pk x1 x2) v216 (k0_pay45 (sg x0)) xo (ix2 0 k)
      = xo (ix3 0 0 k) + (v216 (ix2 0 k) + fsum x0 x1 x2 7 * (if k = 7 then 1 else 0)) := by
  unfold k0_pay50; dsimp only
  simp only [addf_apply, mulf_apply]
  rw [FairOps.cast_118_18_apply, FairOps.bcast_cell_apply, fncell, oh7]
  simp only [flo7]
  rfl

/-! ## What one run of the body adds to the three output blocks -/

section Steps
variable (hb1 : ∀ j, x1 j = 0 ∨ x1 j = 1) (hb2 : ∀ j, x2 j = 0 ∨ x2 j = 1)
include hb1 hb2

/-- The true-positive row gains, at position k, the block's true positives of group k. -/
theorem stepTP_apply (xo : FVec Ideal Cert.KernelIdeal.S1x1x8 .f32) (k : Fin 8) :
    stepTP (F := Ideal) x0 x1 x2 xo (ix3 0 0 k) = xo (ix3 0 0 k) + blockTP x0 x1 x2 k := by
  unfold stepTP
  rw [accT49, accT43, accT35, cellT29, accT25, accT20]
  refine congrArg (xo (ix3 0 0 k) + ·) ?_
  exact (onehot_acc (tsum x0 x1 x2) (fun j k => if k = j then 1 else 0) (fun _ _ => rfl) _ czero_eq k).trans
    (tsum_eq x0 x1 x2 hb1 hb2 k)

/-- The false-negative row gains, at position k, the block's false negatives of group k. -/
theorem stepFN_apply (xo : FVec Ideal Cert.KernelIdeal.S1x1x8 .f32) (k : Fin 8) :
    stepFN (F := Ideal) x0 x1 x2 xo (ix3 0 0 k) = xo (ix3 0 0 k) + blockFN x0 x1 x2 k := by
  unfold stepFN k0_pay1
  rw [FairOps.cast_18_118_apply, accF50, accF44, accF36, cellF30, accF26, accF16, bcF21, oh1]
  refine congrArg (xo (ix3 0 0 k) + ·) ?_
  exact (onehot_acc (fsum x0 x1 x2) (fun j k => if k = j then 1 else 0) (fun _ _ => rfl) _ czero_eq k).trans
    (fsum_eq x0 x1 x2 hb1 hb2 k)
end Steps

/-- The squared-error cell gains the block's summed squared differences (no hypothesis on the entries). -/
theorem stepSQ_apply (xo : FVec Ideal Cert.KernelIdeal.S1x1x1 .f32) :
    stepSQ (F := Ideal) x1 x2 xo (ix3 0 0 0) = xo (ix3 0 0 0) + blockSQ x1 x2 := by
  unfold stepSQ k0_pay8; dsimp only
  rw [FairOps.cast_11_111_apply]
  simp only [addf_apply]
  rw [FairOps.cast_111_11_apply, FairOps.colsum_apply]
  unfold blockSQ
  refine congrArg (xo (ix3 0 0 0) + ·) (Finset.sum_congr rfl fun r _ => ?_)
  rw [FairOps.rowsum_apply]
  refine Finset.sum_congr rfl fun l _ => ?_
  simp only [mulf_apply, subf_apply, k0_pay6, k0_pay7, shapeCast_self]
  rfl

end Cert.FairSem

end
-- ==== Proof.KAcc.lean ====
/-
  The accumulation over the grid. Core cc runs grid points 8 cc … 8 cc + 7 on one output block: its first point
  starts from zero, each later point adds its block's counts to what the point before left, so after the core's
  last point the block holds the sum of its eight input blocks' counts. The two cores' blocks together cover the
  sixteen input blocks, that is all 2^24 samples, so the two rows added are the specification's counts.
-/
import proofs.«406738_j86990267613933_3_alg».proof.Proof.KBody
import proofs.«406738_j86990267613933_3_alg».proof.Proof.KBlocks
import proofs.«406738_j86990267613933_3_alg».proof.Proof.KSem
import proofs.«406738_j86990267613933_3_alg».proof.Proof.BlockMath

set_option maxRecDepth 16384

noncomputable section

open scoped BigOperators

namespace Cert.FairAcc

open Idealize.ShloMosaic Idealize.ShloMosaic.TcCoe Idealize.SL.Sem Idealize.ShloMosaic.ValueIdx
open Cert.KernelIdeal Cert.KernelIdeal.Gen
open Cert.FairSpec Cert.FairMath Cert.FairBody Cert.FairBlocks Cert.FairSem

variable (m : (ℓ : Loc nD τ sig) → Buf (Elt Ideal) ℓ) (c : Dev nD)

/-- The zero row and the zero cell read 0. -/
theorem zero8_apply (k : Fin 8) : (zero8 (F := Ideal)) (ix3 0 0 k) = 0 := czero_eq
theorem zero8'_apply (k : Fin 8) : (zero8' (F := Ideal)) (ix3 0 0 k) = 0 := czero_eq
theorem zero1_apply : (zero1 (F := Ideal)) (ix3 0 0 0) = 0 := czero_eq

section Bin
variable (hB1 : Binary (m ((c.tc : Thread nD τ).loc main_arg1))) (hB2 : Binary (m ((c.tc : Thread nD τ).loc main_arg2)))
include hB1 hB2

/-- Binary arguments have binary blocks. -/
theorem inpb_bin (t : Fin cfg0.N) (j : S8192x128.Idx) : inpb m c t j = 0 ∨ inpb m c t j = 1 := by
  obtain ⟨r, l, rfl⟩ : ∃ (r : Fin 8192) (l : Fin 128), j = ix2 r l := ⟨j 0, j 1, eq_ix2 j⟩
  rw [inpb_apply]; exact hB1 _
theorem tgtb_bin (t : Fin cfg0.N) (j : S8192x128.Idx) : tgtb m c t j = 0 ∨ tgtb m c t j = 1 := by
  obtain ⟨r, l, rfl⟩ : ∃ (r : Fin 8192) (l : Fin 128), j = ix2 r l := ⟨j 0, j 1, eq_ix2 j⟩
  rw [tgtb_apply]; exact hB2 _

/-- T: what the block holds after point n (0 beyond the grid), and the block's own contribution. -/
def pT (k : Fin 8) (n : ℕ) : EReal := if h : n < cfg0.N then (outsAt0 m c n h).1 (ix3 0 0 k) else 0
def gT (k : Fin 8) (n : ℕ) : EReal := if h : n < cfg0.N then blockTP (segb m c ⟨n, h⟩) (inpb m c ⟨n, h⟩) (tgtb m c ⟨n, h⟩) k else 0

theorem hAT (k : Fin 8) (n : ℕ) (hn : n < 16) (h0 : n % 8 = 0) : pT m c k n = gT m c k n := by
  have h : n < cfg0.N := lt_of_lt_of_eq hn (show cfg0.N = 16 from N_0).symm
  unfold pT gT
  rw [dif_pos h, dif_pos h, outsAt0_A m c ⟨n, h⟩ h0]
  dsimp only
  refine (congrFun (outA3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (segb m c ⟨n, h⟩) (inpb m c ⟨n, h⟩) (tgtb m c ⟨n, h⟩)) (ix3 0 0 k)).trans ?_
  refine (stepTP_apply (segb m c ⟨n, h⟩) (inpb m c ⟨n, h⟩) (tgtb m c ⟨n, h⟩) (inpb_bin m c hB1 hB2 ⟨n, h⟩) (tgtb_bin m c hB1 hB2 ⟨n, h⟩) _ k).trans ?_
  rw [zero8_apply, zero_add]

theorem hBT (k : Fin 8) (n : ℕ) (hn : n < 16) (h0 : n % 8 ≠ 0) : pT m c k n = pT m c k (n - 1) + gT m c k n := by
  have h : n < cfg0.N := lt_of_lt_of_eq hn (show cfg0.N = 16 from N_0).symm
  have h' : n - 1 < cfg0.N := lt_of_le_of_lt (Nat.sub_le _ _) h
  unfold pT gT
  rw [dif_pos h, dif_pos h', dif_pos h, outsAt0_B m c ⟨n, h⟩ h0]
  dsimp only
  refine (congrFun (outB3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (fun hh => h0 ((hcond0_0 ⟨n, h⟩).mp hh)) (segb m c ⟨n, h⟩) (inpb m c ⟨n, h⟩) (tgtb m c ⟨n, h⟩) (outsAt0 m c (n - 1) h').1 (outsAt0 m c (n - 1) h').2.1 (outsAt0 m c (n - 1) h').2.2) (ix3 0 0 k)).trans ?_
  exact stepTP_apply (segb m c ⟨n, h⟩) (inpb m c ⟨n, h⟩) (tgtb m c ⟨n, h⟩) (inpb_bin m c hB1 hB2 ⟨n, h⟩) (tgtb_bin m c hB1 hB2 ⟨n, h⟩) _ k

/-- After a core's last point the block holds the sum of the core's eight contributions. -/
theorem lastT (k : Fin 8) (cc : Fin 2) :
    (outsAt0 m c (8 * cc.val + 7) (lt_of_lt_of_eq (by have := cc.isLt; omega : 8 * cc.val + 7 < 16) (show cfg0.N = 16 from N_0).symm)).1 (ix3 0 0 k)
      = ∑ j : Fin 8, gT m c k (8 * cc.val + j.val) := by
  have e := chain8 16 (gT m c k) (pT m c k) (hAT m c hB1 hB2 k) (hBT m c hB1 hB2 k) cc.val (by have := cc.isLt; omega)
  rw [← e]
  unfold pT
  rw [dif_pos]

/-- N: what the block holds after point n (0 beyond the grid), and the block's own contribution. -/
def pN (k : Fin 8) (n : ℕ) : EReal := if h : n < cfg0.N then (outsAt0 m c n h).2.1 (ix3 0 0 k) else 0
def gN (k : Fin 8) (n : ℕ) : EReal := if h : n < cfg0.N then blockFN (segb m c ⟨n, h⟩) (inpb m c ⟨n, h⟩) (tgtb m c ⟨n, h⟩) k else 0

theorem hAN (k : Fin 8) (n : ℕ) (hn : n < 16) (h0 : n % 8 = 0) : pN m c k n = gN m c k n := by
  have h : n < cfg0.N := lt_of_lt_of_eq hn (show cfg0.N = 16 from N_0).symm
  unfold pN gN
  rw [dif_pos h, dif_pos h, outsAt0_A m c ⟨n, h⟩ h0]
  dsimp only
  refine (congrFun (outA4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (segb m c ⟨n, h⟩) (inpb m c ⟨n, h⟩) (tgtb m c ⟨n, h⟩)) (ix3 0 0 k)).trans ?_
  refine (stepFN_apply (segb m c ⟨n, h⟩) (inpb m c ⟨n, h⟩) (tgtb m c ⟨n, h⟩) (inpb_bin m c hB1 hB2 ⟨n, h⟩) (tgtb_bin m c hB1 hB2 ⟨n, h⟩) _ k).trans ?_
  rw [zero8'_apply, zero_add]

theorem hBN (k : Fin 8) (n : ℕ) (hn : n < 16) (h0 : n % 8 ≠ 0) : pN m c k n = pN m c k (n - 1) + gN m c k n := by
  have h : n < cfg0.N := lt_of_lt_of_eq hn (show cfg0.N = 16 from N_0).symm
  have h' : n - 1 < cfg0.N := lt_of_le_of_lt (Nat.sub_le _ _) h
  unfold pN gN
  rw [dif_pos h, dif_pos h', dif_pos h, outsAt0_B m c ⟨n, h⟩ h0]
  dsimp only
  refine (congrFun (outB4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (fun hh => h0 ((hcond0_0 ⟨n, h⟩).mp hh)) (segb m c ⟨n, h⟩) (inpb m c ⟨n, h⟩) (tgtb m c ⟨n, h⟩) (outsAt0 m c (n - 1) h').1 (outsAt0 m c (n - 1) h').2.1 (outsAt0 m c (n - 1) h').2.2) (ix3 0 0 k)).trans ?_
  exact stepFN_apply (segb m c ⟨n, h⟩) (inpb m c ⟨n, h⟩) (tgtb m c ⟨n, h⟩) (inpb_bin m c hB1 hB2 ⟨n, h⟩) (tgtb_bin m c hB1 hB2 ⟨n, h⟩) _ k

/-- After a core's last point the block holds the sum of the core's eight contributions. -/
theorem lastN (k : Fin 8) (cc : Fin 2) :
    (outsAt0 m c (8 * cc.val + 7) (lt_of_lt_of_eq (by have := cc.isLt; omega : 8 * cc.val + 7 < 16) (show cfg0.N = 16 from N_0).symm)).2.1 (ix3 0 0 k)
      = ∑ j : Fin 8, gN m c k (8 * cc.val + j.val) := by
  have e := chain8 16 (gN m c k) (pN m c k) (hAN m c hB1 hB2 k) (hBN m c hB1 hB2 k) cc.val (by have := cc.isLt; omega)
  rw [← e]
  unfold pN
  rw [dif_pos]

end Bin

/-- Q: what the block holds after point n (0 beyond the grid), and the block's own contribution. -/
def pQ  (n : ℕ) : EReal := if h : n < cfg0.N then (outsAt0 m c n h).2.2 (ix3 0 0 0) else 0
def gQ  (n : ℕ) : EReal := if h : n < cfg0.N then blockSQ (inpb m c ⟨n, h⟩) (tgtb m c ⟨n, h⟩)  else 0

theorem hAQ  (n : ℕ) (hn : n < 16) (h0 : n % 8 = 0) : pQ m c  n = gQ m c  n := by
  have h : n < cfg0.N := lt_of_lt_of_eq hn (show cfg0.N = 16 from N_0).symm
  unfold pQ gQ
  rw [dif_pos h, dif_pos h, outsAt0_A m c ⟨n, h⟩ h0]
  dsimp only
  refine (congrFun (outA5 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (segb m c ⟨n, h⟩) (inpb m c ⟨n, h⟩) (tgtb m c ⟨n, h⟩)) (ix3 0 0 0)).trans ?_
  refine (stepSQ_apply (inpb m c ⟨n, h⟩) (tgtb m c ⟨n, h⟩) _).trans ?_
  rw [zero1_apply, zero_add]

theorem hBQ  (n : ℕ) (hn : n < 16) (h0 : n % 8 ≠ 0) : pQ m c  n = pQ m c  (n - 1) + gQ m c  n := by
  have h : n < cfg0.N := lt_of_lt_of_eq hn (show cfg0.N = 16 from N_0).symm
  have h' : n - 1 < cfg0.N := lt_of_le_of_lt (Nat.sub_le _ _) h
  unfold pQ gQ
  rw [dif_pos h, dif_pos h', dif_pos h, outsAt0_B m c ⟨n, h⟩ h0]
  dsimp only
  refine (congrFun (outB5 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (fun hh => h0 ((hcond0_0 ⟨n, h⟩).mp hh)) (segb m c ⟨n, h⟩) (inpb m c ⟨n, h⟩) (tgtb m c ⟨n, h⟩) (outsAt0 m c (n - 1) h').1 (outsAt0 m c (n - 1) h').2.1 (outsAt0 m c (n - 1) h').2.2) (ix3 0 0 0)).trans ?_
  exact stepSQ_apply (inpb m c ⟨n, h⟩) (tgtb m c ⟨n, h⟩) _

/-- After a core's last point the block holds the sum of the core's eight contributions. -/
theorem lastQ  (cc : Fin 2) :
    (outsAt0 m c (8 * cc.val + 7) (lt_of_lt_of_eq (by have := cc.isLt; omega : 8 * cc.val + 7 < 16) (show cfg0.N = 16 from N_0).symm)).2.2 (ix3 0 0 0)
      = ∑ j : Fin 8, gQ m c  (8 * cc.val + j.val) := by
  have e := chain8 16 (gQ m c ) (pQ m c ) (hAQ m c ) (hBQ m c ) cc.val (by have := cc.isLt; omega)
  rw [← e]
  unfold pQ
  rw [dif_pos]

/-! ## The two cores together: all sixteen blocks, all samples -/

section Totals
variable (hB1 : Binary (m ((c.tc : Thread nD τ).loc main_arg1))) (hB2 : Binary (m ((c.tc : Thread nD τ).loc main_arg2)))
include hB1 hB2

/-- The two cores' true-positive rows, added, are the specification's counts. -/
theorem tp_total (k : Fin 8) :
    ∑ cc : Fin 2, (outsAt0 m c (8 * cc.val + 7) (lt_of_lt_of_eq (by have := cc.isLt; omega : 8 * cc.val + 7 < 16) (show cfg0.N = 16 from N_0).symm)).1 (ix3 0 0 k)
      = TP (m ((c.tc : Thread nD τ).loc main_arg0)) (m ((c.tc : Thread nD τ).loc main_arg1)) (m ((c.tc : Thread nD τ).loc main_arg2)) k := by
  simp only [lastT m c hB1 hB2 k]
  refine (sum_points (fun b : Fin 16 => gT m c k b.val)).symm.trans ?_
  unfold TP
  rw [sum_flat]
  refine Finset.sum_congr rfl fun b _ => ?_
  have hb : b.val < cfg0.N := lt_of_lt_of_eq b.isLt (show cfg0.N = 16 from N_0).symm
  unfold gT
  rw [dif_pos hb]
  unfold blockTP
  refine Finset.sum_congr rfl fun r _ => Finset.sum_congr rfl fun l _ => ?_
  rw [segb_apply, inpb_apply, tgtb_apply]
  rfl

/-- … and likewise the false negatives. -/
theorem fn_total (k : Fin 8) :
    ∑ cc : Fin 2, (outsAt0 m c (8 * cc.val + 7) (lt_of_lt_of_eq (by have := cc.isLt; omega : 8 * cc.val + 7 < 16) (show cfg0.N = 16 from N_0).symm)).2.1 (ix3 0 0 k)
      = FN (m ((c.tc : Thread nD τ).loc main_arg0)) (m ((c.tc : Thread nD τ).loc main_arg1)) (m ((c.tc : Thread nD τ).loc main_arg2)) k := by
  simp only [lastN m c hB1 hB2 k]
  refine (sum_points (fun b : Fin 16 => gN m c k b.val)).symm.trans ?_
  unfold FN
  rw [sum_flat]
  refine Finset.sum_congr rfl fun b _ => ?_
  have hb : b.val < cfg0.N := lt_of_lt_of_eq b.isLt (show cfg0.N = 16 from N_0).symm
  unfold gN
  rw [dif_pos hb]
  unfold blockFN
  refine Finset.sum_congr rfl fun r _ => Finset.sum_congr rfl fun l _ => ?_
  rw [segb_apply, inpb_apply, tgtb_apply]
  rfl
end Totals

/-- The two cores' squared-error cells, added, are the specification's squared error. -/
theorem sq_total :
    ∑ cc : Fin 2, (outsAt0 m c (8 * cc.val + 7) (lt_of_lt_of_eq (by have := cc.isLt; omega : 8 * cc.val + 7 < 16) (show cfg0.N = 16 from N_0).symm)).2.2 (ix3 0 0 0)
      = SQ (m ((c.tc : Thread nD τ).loc main_arg1)) (m ((c.tc : Thread nD τ).loc main_arg2)) := by
  simp only [lastQ m c]
  refine (sum_points (fun b : Fin 16 => gQ m c b.val)).symm.trans ?_
  unfold SQ
  rw [sum_flat]
  refine Finset.sum_congr rfl fun b _ => ?_
  have hb : b.val < cfg0.N := lt_of_lt_of_eq b.isLt (show cfg0.N = 16 from N_0).symm
  unfold gQ
  rw [dif_pos hb]
  unfold blockSQ
  refine Finset.sum_congr rfl fun r _ => Finset.sum_congr rfl fun l _ => ?_
  rw [inpb_apply, tgtb_apply]
  rfl

end Cert.FairAcc

end
-- ==== Proof.KFinal.lean ====
/-
  From what the three output windows hold point by point to the program's result. Each output block belongs to
  one core (block index = the core's number) and is written back once, after the core's last grid point
  (points 7 and 15 of 16), so the result arrays hold, at (core, 0, k), what the staging buffer held after that
  point. The host then adds the two cores' rows and applies the closing operations.
-/
import proofs.«406738_j86990267613933_3_alg».proof.Proof.Gen.KernelIdeal.Frame
import proofs.«406738_j86990267613933_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.FairFinal

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The last grid point of core v. -/
theorem last_lt (v : ℕ) (hv : v < 2) : 8 * v + 7 < cfg0.N :=
  lt_of_lt_of_eq (by omega : 8 * v + 7 < 16) (show cfg0.N = 16 from N_0).symm

section
variable (a3 a4 : Dev nD → (n : ℕ) → n < cfg0.N → Vec F S1x1x8 .f32)
variable (a5 : Dev nD → (n : ℕ) → n < cfg0.N → Vec F S1x1x1 .f32)

/-- The result arrays: at (core, 0, k), the staging contents after the core's last point. -/
def fin3 (c : Dev nD) : FVec F S2x1x8 .f32 := fun idx =>
  a3 c (8 * (idx 0).val + 7) (last_lt _ (idx 0).isLt) (ix3 (0 : Fin 1) (0 : Fin 1) (idx 2 : Fin 8))
def fin5 (c : Dev nD) : FVec F S2x1x1 .f32 := fun idx =>
  a5 c (8 * (idx 0).val + 7) (last_lt _ (idx 0).isLt) (ix3 (0 : Fin 1) (0 : Fin 1) (0 : Fin 1))

/-- The kernel program's closing host operations, applied to the three result arrays. -/
def ktail (o3 o4 : FVec F S2x1x8 .f32) (o5 : FVec F S2x1x1 .f32) : FVec F S_ .f32 :=
  addf
    (Host.divf (Host.reduceAdd (shapeCast S2 o5 shapeCasts_S2x1x1_S2) (constant S_ .f32 0x00000000#32) reducesTo_S2_S_d0 h_S_)
      (constant S_ .f32 0x4B800000#32))
    (Host.divf
      (Host.reduceAdd
        (Host.divf (Host.reduceAdd (shapeCast S2x8 o3 shapeCasts_S2x1x8_S2x8) (constant S_ .f32 0x00000000#32) reducesTo_S2x8_S8_d0 h_S_)
          (addf (Host.reduceAdd (shapeCast S2x8 o3 shapeCasts_S2x1x8_S2x8) (constant S_ .f32 0x00000000#32) reducesTo_S2x8_S8_d0 h_S_)
            (Host.reduceAdd (shapeCast S2x8 o4 shapeCasts_S2x1x8_S2x8) (constant S_ .f32 0x00000000#32) reducesTo_S2x8_S8_d0 h_S_)))
        (constant S_ .f32 0x00000000#32) reducesTo_S8_S_d0 h_S_)
      (addf
        (Host.reduce FloatOps.minimumf
          (Host.divf (Host.reduceAdd (shapeCast S2x8 o3 shapeCasts_S2x1x8_S2x8) (constant S_ .f32 0x00000000#32) reducesTo_S2x8_S8_d0 h_S_)
            (addf (Host.reduceAdd (shapeCast S2x8 o3 shapeCasts_S2x1x8_S2x8) (constant S_ .f32 0x00000000#32) reducesTo_S2x8_S8_d0 h_S_)
              (Host.reduceAdd (shapeCast S2x8 o4 shapeCasts_S2x1x8_S2x8) (constant S_ .f32 0x00000000#32) reducesTo_S2x8_S8_d0 h_S_)))
          (constant S_ .f32 0x7F800000#32) reducesTo_S8_S_d0 h_S_)
        (constant S_ .f32 0x33D6BF95#32)))

/-- The block index of the three output windows at a grid point: (the point's core, 0, 0). -/
private theorem idx3 : ∀ t : Fin grid0.N, win0_3.index t 0 = t.val / 8 ∧ win0_3.index t 1 = 0 ∧ win0_3.index t 2 = 0 := by decide +kernel
private theorem idx4 : ∀ t : Fin grid0.N, win0_4.index t 0 = t.val / 8 ∧ win0_4.index t 1 = 0 ∧ win0_4.index t 2 = 0 := by decide +kernel
private theorem idx5 : ∀ t : Fin grid0.N, win0_5.index t 0 = t.val / 8 ∧ win0_5.index t 1 = 0 ∧ win0_5.index t 2 = 0 := by decide +kernel

/-- A point-indexed family read at two equal points. -/
private theorem pt_congr {α : Type} (f : (n : ℕ) → n < cfg0.N → α) {n n' : ℕ} (e : n = n') (h : n < cfg0.N) (h' : n' < cfg0.N) :
    f n h = f n' h' := by subst e; rfl

/-- What the write-back at a point ≡ 7 (mod 8) writes for output 3: the block (core, 0, 0) of the result array, read
    through the block's view, is the staging contents after that point (the block has extent 1 on the first two axes). -/
private theorem flushed_eq3 (hout : ∀ c n h, outsAt0 m c n h = (a3 c n h, a4 c n h, a5 c n h)) (c : Dev nD) (t : Fin cfg0.N) (hf : (cfg0.win 3).flush t = true) :
    (dats m 0 c).flushed 3 t = ((cfg0.win 3).blk t).view.read (Elt F) (fin3 a3 c) := by
  have hN : cfg0.N = 16 := N_0
  have h7 : t.val % 8 = 7 := (flush0_3 t).mp hf
  show (cfg0.win 3).cut (grid0.coords t) ((dats m 0 c).after 3 t) = _
  rw [after0_3, hout]
  funext y
  rw [View.read_apply]
  have hi := idx3 t
  have hy0 : (y 0).val < 1 := (y 0).isLt
  have hy1 : (y 1).val < 1 := (y 1).isLt
  have hy2 : (y 2).val < 8 := (y 2).isLt
  have e0 : ((((cfg0.win 3).blk t).view.emb y) 0 : ℕ) = t.val / 8 := by
    show win0_3.index t 0 * 1 + 1 * (y 0).val = _
    rw [hi.1]; omega
  have e2 : ((((cfg0.win 3).blk t).view.emb y) 2 : ℕ) = (y 2).val := by
    show win0_3.index t 2 * 8 + 1 * (y 2).val = _
    rw [hi.2.2]; omega
  show a3 c t.val t.isLt ((cfg0.win 3).xinj (grid0.coords t) y) = fin3 a3 c (((cfg0.win 3).blk t).view.emb y)
  unfold fin3
  have en : t.val = 8 * (((cfg0.win 3).blk t).view.emb y 0).val + 7 := by rw [e0]; omega
  have ex : (cfg0.win 3).xinj (grid0.coords t) y = ix3 (0 : Fin 1) (0 : Fin 1) (((cfg0.win 3).blk t).view.emb y 2 : Fin 8) := by
    funext a; apply Fin.ext
    match a with
    | ⟨0, _⟩ => show (y 0).val = 0; omega
    | ⟨1, _⟩ => show (y 1).val = 0; omega
    | ⟨2, _⟩ => show (y 2).val = _; rw [e2]
  rw [ex]
  exact congrFun (pt_congr (a3 c) en _ _) _

/-- What the write-back at a point ≡ 7 (mod 8) writes for output 4: the block (core, 0, 0) of the result array, read
    through the block's view, is the staging contents after that point (the block has extent 1 on the first two axes). -/
private theorem flushed_eq4 (hout : ∀ c n h, outsAt0 m c n h = (a3 c n h, a4 c n h, a5 c n h)) (c : Dev nD) (t : Fin cfg0.N) (hf : (cfg0.win 4).flush t = true) :
    (dats m 0 c).flushed 4 t = ((cfg0.win 4).blk t).view.read (Elt F) (fin3 a4 c) := by
  have hN : cfg0.N = 16 := N_0
  have h7 : t.val % 8 = 7 := (flush0_4 t).mp hf
  show (cfg0.win 4).cut (grid0.coords t) ((dats m 0 c).after 4 t) = _
  rw [after0_4, hout]
  funext y
  rw [View.read_apply]
  have hi := idx4 t
  have hy0 : (y 0).val < 1 := (y 0).isLt
  have hy1 : (y 1).val < 1 := (y 1).isLt
  have hy2 : (y 2).val < 8 := (y 2).isLt
  have e0 : ((((cfg0.win 4).blk t).view.emb y) 0 : ℕ) = t.val / 8 := by
    show win0_4.index t 0 * 1 + 1 * (y 0).val = _
    rw [hi.1]; omega
  have e2 : ((((cfg0.win 4).blk t).view.emb y) 2 : ℕ) = (y 2).val := by
    show win0_4.index t 2 * 8 + 1 * (y 2).val = _
    rw [hi.2.2]; omega
  show a4 c t.val t.isLt ((cfg0.win 4).xinj (grid0.coords t) y) = fin3 a4 c (((cfg0.win 4).blk t).view.emb y)
  unfold fin3
  have en : t.val = 8 * (((cfg0.win 4).blk t).view.emb y 0).val + 7 := by rw [e0]; omega
  have ex : (cfg0.win 4).xinj (grid0.coords t) y = ix3 (0 : Fin 1) (0 : Fin 1) (((cfg0.win 4).blk t).view.emb y 2 : Fin 8) := by
    funext a; apply Fin.ext
    match a with
    | ⟨0, _⟩ => show (y 0).val = 0; omega
    | ⟨1, _⟩ => show (y 1).val = 0; omega
    | ⟨2, _⟩ => show (y 2).val = _; rw [e2]
  rw [ex]
  exact congrFun (pt_congr (a4 c) en _ _) _

/-- What the write-back at a point ≡ 7 (mod 8) writes for output 5: the block (core, 0, 0) of the result array, read
    through the block's view, is the staging contents after that point (the block has extent 1 on the first two axes). -/
private theorem flushed_eq5 (hout : ∀ c n h, outsAt0 m c n h = (a3 c n h, a4 c n h, a5 c n h)) (c : Dev nD) (t : Fin cfg0.N) (hf : (cfg0.win 5).flush t = true) :
    (dats m 0 c).flushed 5 t = ((cfg0.win 5).blk t).view.read (Elt F) (fin5 a5 c) := by
  have hN : cfg0.N = 16 := N_0
  have h7 : t.val % 8 = 7 := (flush0_5 t).mp hf
  show (cfg0.win 5).cut (grid0.coords t) ((dats m 0 c).after 5 t) = _
  rw [after0_5, hout]
  funext y
  rw [View.read_apply]
  have hi := idx5 t
  have hy0 : (y 0).val < 1 := (y 0).isLt
  have hy1 : (y 1).val < 1 := (y 1).isLt
  have hy2 : (y 2).val < 1 := (y 2).isLt
  have e0 : ((((cfg0.win 5).blk t).view.emb y) 0 : ℕ) = t.val / 8 := by
    show win0_5.index t 0 * 1 + 1 * (y 0).val = _
    rw [hi.1]; omega
  have e2 : ((((cfg0.win 5).blk t).view.emb y) 2 : ℕ) = (y 2).val := by
    show win0_5.index t 2 * 1 + 1 * (y 2).val = _
    rw [hi.2.2]; omega
  show a5 c t.val t.isLt ((cfg0.win 5).xinj (grid0.coords t) y) = fin5 a5 c (((cfg0.win 5).blk t).view.emb y)
  unfold fin5
  have en : t.val = 8 * (((cfg0.win 5).blk t).view.emb y 0).val + 7 := by rw [e0]; omega
  have ex : (cfg0.win 5).xinj (grid0.coords t) y = ix3 (0 : Fin 1) (0 : Fin 1) (0 : Fin 1) := by
    funext a; apply Fin.ext
    match a with
    | ⟨0, _⟩ => show (y 0).val = 0; omega
    | ⟨1, _⟩ => show (y 1).val = 0; omega
    | ⟨2, _⟩ => show (y 2).val = 0; omega
  rw [ex]
  exact congrFun (pt_congr (a5 c) en _ _) _

/-- Index (core, 0, k) of output 3's array lies in the block written back at the core's last point 8·core + 7, so the
    array ends holding, at (core, 0, k), the staging contents after that core's last point. -/
private theorem final3 (hout : ∀ c n h, outsAt0 m c n h = (a3 c n h, a4 c n h, a5 c n h)) (c : Dev nD) :
    (dats m 0 c).arrAt 3 cfg0.N = fin3 a3 c :=
  (dats m 0 c).arrAt_eq_of_cover 3 (fin3 a3 c) (flushed_eq3 m a3 a4 a5 hout c) fun i => by
    have hN : cfg0.N = 16 := N_0
    have h0 : (i 0 : ℕ) < 2 := (i 0).isLt
    have h1 : (i 1 : ℕ) < 1 := (i 1).isLt
    have h2 : (i 2 : ℕ) < 8 := (i 2).isLt
    have hi := idx3 ⟨8 * (i 0).val + 7, last_lt _ h0⟩
    have hd : (8 * (i 0).val + 7) / 8 = (i 0).val := by omega
    refine ⟨⟨8 * (i 0).val + 7, last_lt _ h0⟩, (flush0_3 _).mpr (by show (8 * (i 0).val + 7) % 8 = 7; omega), ?_⟩
    show i ∈ ((View.whole main_v5_0).slice (win0_3.rect ⟨8 * (i 0).val + 7, last_lt _ h0⟩)).set
    rw [View.set_slice_whole, Rect.mem_set_unit]
    intro a
    match a with
    | ⟨0, _⟩ =>
      show win0_3.index ⟨8 * (i 0).val + 7, last_lt _ h0⟩ 0 * 1 ≤ (i 0 : ℕ)
        ∧ (i 0 : ℕ) < win0_3.index ⟨8 * (i 0).val + 7, last_lt _ h0⟩ 0 * 1 + 1
      rw [hi.1]; show (8 * (i 0).val + 7) / 8 * 1 ≤ (i 0 : ℕ) ∧ (i 0 : ℕ) < (8 * (i 0).val + 7) / 8 * 1 + 1
      rw [hd]; omega
    | ⟨1, _⟩ =>
      show win0_3.index ⟨8 * (i 0).val + 7, last_lt _ h0⟩ 1 * 1 ≤ (i 1 : ℕ)
        ∧ (i 1 : ℕ) < win0_3.index ⟨8 * (i 0).val + 7, last_lt _ h0⟩ 1 * 1 + 1
      rw [hi.2.1]; omega
    | ⟨2, _⟩ =>
      show win0_3.index ⟨8 * (i 0).val + 7, last_lt _ h0⟩ 2 * 8 ≤ (i 2 : ℕ)
        ∧ (i 2 : ℕ) < win0_3.index ⟨8 * (i 0).val + 7, last_lt _ h0⟩ 2 * 8 + 8
      rw [hi.2.2]; omega

/-- Index (core, 0, k) of output 4's array lies in the block written back at the core's last point 8·core + 7, so the
    array ends holding, at (core, 0, k), the staging contents after that core's last point. -/
private theorem final4 (hout : ∀ c n h, outsAt0 m c n h = (a3 c n h, a4 c n h, a5 c n h)) (c : Dev nD) :
    (dats m 0 c).arrAt 4 cfg0.N = fin3 a4 c :=
  (dats m 0 c).arrAt_eq_of_cover 4 (fin3 a4 c) (flushed_eq4 m a3 a4 a5 hout c) fun i => by
    have hN : cfg0.N = 16 := N_0
    have h0 : (i 0 : ℕ) < 2 := (i 0).isLt
    have h1 : (i 1 : ℕ) < 1 := (i 1).isLt
    have h2 : (i 2 : ℕ) < 8 := (i 2).isLt
    have hi := idx4 ⟨8 * (i 0).val + 7, last_lt _ h0⟩
    have hd : (8 * (i 0).val + 7) / 8 = (i 0).val := by omega
    refine ⟨⟨8 * (i 0).val + 7, last_lt _ h0⟩, (flush0_4 _).mpr (by show (8 * (i 0).val + 7) % 8 = 7; omega), ?_⟩
    show i ∈ ((View.whole main_v5_1).slice (win0_4.rect ⟨8 * (i 0).val + 7, last_lt _ h0⟩)).set
    rw [View.set_slice_whole, Rect.mem_set_unit]
    intro a
    match a with
    | ⟨0, _⟩ =>
      show win0_4.index ⟨8 * (i 0).val + 7, last_lt _ h0⟩ 0 * 1 ≤ (i 0 : ℕ)
        ∧ (i 0 : ℕ) < win0_4.index ⟨8 * (i 0).val + 7, last_lt _ h0⟩ 0 * 1 + 1
      rw [hi.1]; show (8 * (i 0).val + 7) / 8 * 1 ≤ (i 0 : ℕ) ∧ (i 0 : ℕ) < (8 * (i 0).val + 7) / 8 * 1 + 1
      rw [hd]; omega
    | ⟨1, _⟩ =>
      show win0_4.index ⟨8 * (i 0).val + 7, last_lt _ h0⟩ 1 * 1 ≤ (i 1 : ℕ)
        ∧ (i 1 : ℕ) < win0_4.index ⟨8 * (i 0).val + 7, last_lt _ h0⟩ 1 * 1 + 1
      rw [hi.2.1]; omega
    | ⟨2, _⟩ =>
      show win0_4.index ⟨8 * (i 0).val + 7, last_lt _ h0⟩ 2 * 8 ≤ (i 2 : ℕ)
        ∧ (i 2 : ℕ) < win0_4.index ⟨8 * (i 0).val + 7, last_lt _ h0⟩ 2 * 8 + 8
      rw [hi.2.2]; omega

/-- Index (core, 0, k) of output 5's array lies in the block written back at the core's last point 8·core + 7, so the
    array ends holding, at (core, 0, k), the staging contents after that core's last point. -/
private theorem final5 (hout : ∀ c n h, outsAt0 m c n h = (a3 c n h, a4 c n h, a5 c n h)) (c : Dev nD) :
    (dats m 0 c).arrAt 5 cfg0.N = fin5 a5 c :=
  (dats m 0 c).arrAt_eq_of_cover 5 (fin5 a5 c) (flushed_eq5 m a3 a4 a5 hout c) fun i => by
    have hN : cfg0.N = 16 := N_0
    have h0 : (i 0 : ℕ) < 2 := (i 0).isLt
    have h1 : (i 1 : ℕ) < 1 := (i 1).isLt
    have h2 : (i 2 : ℕ) < 1 := (i 2).isLt
    have hi := idx5 ⟨8 * (i 0).val + 7, last_lt _ h0⟩
    have hd : (8 * (i 0).val + 7) / 8 = (i 0).val := by omega
    refine ⟨⟨8 * (i 0).val + 7, last_lt _ h0⟩, (flush0_5 _).mpr (by show (8 * (i 0).val + 7) % 8 = 7; omega), ?_⟩
    show i ∈ ((View.whole main_v5_2).slice (win0_5.rect ⟨8 * (i 0).val + 7, last_lt _ h0⟩)).set
    rw [View.set_slice_whole, Rect.mem_set_unit]
    intro a
    match a with
    | ⟨0, _⟩ =>
      show win0_5.index ⟨8 * (i 0).val + 7, last_lt _ h0⟩ 0 * 1 ≤ (i 0 : ℕ)
        ∧ (i 0 : ℕ) < win0_5.index ⟨8 * (i 0).val + 7, last_lt _ h0⟩ 0 * 1 + 1
      rw [hi.1]; show (8 * (i 0).val + 7) / 8 * 1 ≤ (i 0 : ℕ) ∧ (i 0 : ℕ) < (8 * (i 0).val + 7) / 8 * 1 + 1
      rw [hd]; omega
    | ⟨1, _⟩ =>
      show win0_5.index ⟨8 * (i 0).val + 7, last_lt _ h0⟩ 1 * 1 ≤ (i 1 : ℕ)
        ∧ (i 1 : ℕ) < win0_5.index ⟨8 * (i 0).val + 7, last_lt _ h0⟩ 1 * 1 + 1
      rw [hi.2.1]; omega
    | ⟨2, _⟩ =>
      show win0_5.index ⟨8 * (i 0).val + 7, last_lt _ h0⟩ 2 * 1 ≤ (i 2 : ℕ)
        ∧ (i 2 : ℕ) < win0_5.index ⟨8 * (i 0).val + 7, last_lt _ h0⟩ 2 * 1 + 1
      rw [hi.2.2]; omega

/-- The program's last buffer after the closing host operations: they read the three result arrays as the region leaves
    them, which are the staging contents after the cores' last points. -/
private theorem tail_eq (hout : ∀ c n h, outsAt0 m c n h = (a3 c n h, a4 c n h, a5 c n h)) (c : Dev nD) :
    Pipeline.afterTail₀ cfgs (dats m) 0 (V0 m) [hostOps1] c main_v19 = ktail (fin3 a3 c) (fin3 a4 c) (fin5 a5 c) := by
  have e3 : Pipeline.withArrays (cfgs 0).spec c (V0 m c) (fun w => (dats m 0 c).arrAt w (cfgs 0).N) (Proc.devRef .tc main_v5_0)
      = fin3 a3 c := (Pipeline.withArrays_arr spec0 launch0.win.arr_inj c _ _ 3).trans (final3 m a3 a4 a5 hout c)
  have e4 : Pipeline.withArrays (cfgs 0).spec c (V0 m c) (fun w => (dats m 0 c).arrAt w (cfgs 0).N) (Proc.devRef .tc main_v5_1)
      = fin3 a4 c := (Pipeline.withArrays_arr spec0 launch0.win.arr_inj c _ _ 4).trans (final4 m a3 a4 a5 hout c)
  have e5 : Pipeline.withArrays (cfgs 0).spec c (V0 m c) (fun w => (dats m 0 c).arrAt w (cfgs 0).N) (Proc.devRef .tc main_v5_2)
      = fin5 a5 c := (Pipeline.withArrays_arr spec0 launch0.win.arr_inj c _ _ 5).trans (final5 m a3 a4 a5 hout c)
  unfold Pipeline.afterTail₀
  show StableHlo.after hostOps1 _ (Proc.devRef .tc main_v19) = _
  after_results_simp
  rw [e3, e4, e5]
  rfl

/-- The run, read: the program ends with the closing operations of the three result arrays, the arguments unchanged. -/
theorem run (hout : ∀ c n h, outsAt0 m c n h = (a3 c n h, a4 c n h, a5 c n h)) :
    θ_run defs (onTc (τ := τ) (main (F := F))) ⟨m, fun _ => 0, ρ⟩ fun r => ∀ c : Dev nD,
      r.2.mem ((c.tc : Thread nD τ).loc main_v19) = ktail (fin3 a3 c) (fin3 a4 c) (fin5 a5 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v19 (Pipeline.mem_restRefs_of main_v19 (by decide) (by decide))).trans (tail_eq m a3 a4 a5 hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)
end

/-- At the ideal instance, the sum over the two cores' rows of a [2,1,8] result array viewed [2,8]. -/
private theorem red8 (o : FVec Ideal S2x1x8 .f32) :
    Host.reduceAdd (shapeCast S2x8 o shapeCasts_S2x1x8_S2x8) (constant (F := Ideal) S_ .f32 0x00000000#32) reducesTo_S2x8_S8_d0 h_S_
      = fun j => ∑ cc : Fin 2, o (ix3 cc (0 : Fin 1) (j 0 : Fin 8)) := by
  funext j
  show Ideal.hostReduceAdd reducesTo_S2x8_S8_d0 (shapeCast S2x8 o shapeCasts_S2x1x8_S2x8) (Ideal.ofBits .f32 0x00000000#32) j = _
  rw [Ideal.hostReduceAdd_single reducesTo_S2x8_S8_d0 (by decide : S2x8.Reduces [0] S8), Ideal.ofBits_zero_f32, zero_add]
  refine Finset.sum_congr rfl fun cc _ => ?_
  refine shapeCast_apply o _ _ (ix3 cc (0 : Fin 1) (j 0 : Fin 8)) ?_
  rw [Shape.rowMajor_val_three, Shape.rowMajor_val_two]
  show (cc.val * 1 + 0) * 8 + (j 0).val = cc.val * 8 + (j 0).val
  omega

/-- A rank-1 index set is its one coordinate's range. -/
private def idx1Equiv {n : ℕ} : (⟨1, ![n]⟩ : Shape).Idx ≃ Fin n where
  toFun i := i 0
  invFun := ix1
  left_inv i := (eq_ix1 i).symm
  right_inv _ := rfl

/-- At the ideal instance, the sum over the two cores of a [2,1,1] result array viewed [2]. -/
private theorem red1 (o : FVec Ideal S2x1x1 .f32) :
    Host.reduceAdd (shapeCast S2 o shapeCasts_S2x1x1_S2) (constant (F := Ideal) S_ .f32 0x00000000#32) reducesTo_S2_S_d0 h_S_
      = fun _ => ∑ cc : Fin 2, o (ix3 cc (0 : Fin 1) (0 : Fin 1)) := by
  funext j
  show Ideal.hostReduceAdd reducesTo_S2_S_d0 (shapeCast S2 o shapeCasts_S2x1x1_S2) (Ideal.ofBits .f32 0x00000000#32) j = _
  rw [Ideal.hostReduceAdd_total reducesTo_S2_S_d0 (fun b => b.elim0), Ideal.ofBits_zero_f32, zero_add]
  refine Fintype.sum_equiv idx1Equiv _ _ fun i => ?_
  refine shapeCast_apply o _ i (ix3 (i 0 : Fin 2) (0 : Fin 1) (0 : Fin 1)) ?_
  rw [Shape.rowMajor_val_three, Shape.rowMajor_val_one]
  show ((i 0).val * 1 + 0) * 1 + 0 = (i 0).val
  omega

/-- At the ideal instance the closing operations are the specification's, of the two cores' rows added. -/
theorem ktail_ideal (o3 o4 : FVec Ideal S2x1x8 .f32) (o5 : FVec Ideal S2x1x1 .f32) :
    ktail (F := Ideal) o3 o4 o5
      = Cert.FairSpec.tailF (fun j => ∑ cc : Fin 2, o3 (ix3 cc (0 : Fin 1) (j 0 : Fin 8)))
          (fun j => ∑ cc : Fin 2, o4 (ix3 cc (0 : Fin 1) (j 0 : Fin 8)))
          (fun _ => ∑ cc : Fin 2, o5 (ix3 cc (0 : Fin 1) (0 : Fin 1))) := by
  unfold ktail Cert.FairSpec.tailF
  rw [red8 o3, red8 o4, red1 o5]

end Cert.FairFinal

end
-- ==== Proof.lean ====
/-
  A fairness loss over 2^24 samples in 8 groups: per group the true-positive rate TP/(TP+FN) of binary
  predictions against binary labels, the rates' sum over their minimum plus eps, added to the mean squared
  error. The reference counts with two segment sums of the masks [p = 1 and t = 1] and [p = 0 and t = 1]; the
  kernel streams 16 blocks of [8192,128] samples over two cores, packs both indicators into t (256 - 255 p),
  sums each group's lanes per row, splits the row sum by floor(./256) into the two counts, and accumulates
  them in a per-core row that the host adds at the end.

  The two agree at the ideal instance where predictions and labels are 0 or 1 (the precondition's conjuncts):
  then the packed term is tp + 256 fn, a row of 128 lanes sums to A + 256 B with A < 256, and the split is
  exact. Both programs then apply the same closing operations to the same three aggregates. No rewrite was made
  by the idealization, so its preservation claim is trivial; the three frames are the generated ones.
-/
import proofs.«406738_j86990267613933_3_alg».proof.Defs
import proofs.«406738_j86990267613933_3_alg».proof.Proof.Gen.Kernel
import proofs.«406738_j86990267613933_3_alg».proof.Proof.Gen.Kernel.Skeleton
import proofs.«406738_j86990267613933_3_alg».proof.Proof.Gen.Kernel.Launch
import proofs.«406738_j86990267613933_3_alg».proof.Proof.Gen.Kernel.Points
import proofs.«406738_j86990267613933_3_alg».proof.Proof.Gen.Kernel.Frame
import proofs.«406738_j86990267613933_3_alg».proof.Proof.Gen.KernelIdeal
import proofs.«406738_j86990267613933_3_alg».proof.Proof.Gen.KernelIdeal.Skeleton
import proofs.«406738_j86990267613933_3_alg».proof.Proof.Gen.KernelIdeal.Launch
import proofs.«406738_j86990267613933_3_alg».proof.Proof.Gen.KernelIdeal.Points
import proofs.«406738_j86990267613933_3_alg».proof.Proof.Gen.KernelIdeal.Frame
import proofs.«406738_j86990267613933_3_alg».proof.Proof.Gen.ReferenceIdeal
import proofs.«406738_j86990267613933_3_alg».proof.Proof.Gen.ReferenceIdeal.Run
import proofs.«406738_j86990267613933_3_alg».proof.Proof.Gen.Pre_finite_inputs
import proofs.«406738_j86990267613933_3_alg».proof.Proof.Spec
import proofs.«406738_j86990267613933_3_alg».proof.Proof.RefValue
import proofs.«406738_j86990267613933_3_alg».proof.Proof.PreBinary
import proofs.«406738_j86990267613933_3_alg».proof.Proof.KAcc
import proofs.«406738_j86990267613933_3_alg».proof.Proof.KFinal
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the specification's result of the (agreeing) argument arrays: the kernel's three
    result arrays, the two cores' rows added, are the specification's counts and squared error when predictions
    and labels are binary; the reference's are so for any input. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.FairSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.FairFinal.run m ρ (fun c n h => (Cert.KernelIdeal.Gen.outsAt0 m c n h).1)
        (fun c n h => (Cert.KernelIdeal.Gen.outsAt0 m c n h).2.1) (fun c n h => (Cert.KernelIdeal.Gen.outsAt0 m c n h).2.2)
        (fun _ _ _ => rfl))
    have hb := @Cert.FairPre.binary_of_pre Cert.Pre_finite_inputs.Gen.facts _ _ _ _ (hpre c)
    rw [Cert.FairFinal.ktail_ideal]
    unfold Cert.FairSpec.result
    have e3 : (fun j : Cert.FairSpec.SK.Idx => ∑ cc : Fin 2, Cert.FairFinal.fin3 (fun c n h => (Cert.KernelIdeal.Gen.outsAt0 m c n h).1) c
        (ix3 cc (0 : Fin 1) (j 0 : Fin 8))) = Cert.FairSpec.tpv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
      funext fun j => Cert.FairAcc.tp_total m c hb.1 hb.2 (j 0)
    have e4 : (fun j : Cert.FairSpec.SK.Idx => ∑ cc : Fin 2, Cert.FairFinal.fin3 (fun c n h => (Cert.KernelIdeal.Gen.outsAt0 m c n h).2.1) c
        (ix3 cc (0 : Fin 1) (j 0 : Fin 8))) = Cert.FairSpec.fnv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
      funext fun j => Cert.FairAcc.fn_total m c hb.1 hb.2 (j 0)
    have e5 : (fun _ : Cert.FairSpec.S0.Idx => ∑ cc : Fin 2, Cert.FairFinal.fin5 (fun c n h => (Cert.KernelIdeal.Gen.outsAt0 m c n h).2.2) c
        (ix3 cc (0 : Fin 1) (0 : Fin 1))) = Cert.FairSpec.sqv (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
      funext fun _ => Cert.FairAcc.sq_total m c
    rw [e3, e4, e5]
  · refine (θ_run Cert.ReferenceIdeal.defs _ _).mono (fun r h c => ⟨(h c).1.trans ?_, (h c).2⟩)
      (Cert.ReferenceIdeal.Value.run (F := Ideal) m' ρ')
    rw [Cert.FairRef.ref_result, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
